-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x64 : Shape := ⟨3, ![1, 8192, 64]⟩
abbrev S8192x8 : Shape := ⟨2, ![8192, 8]⟩
abbrev S32768x8192 : Shape := ⟨2, ![32768, 8192]⟩
abbrev S1 : Shape := ⟨1, ![1]⟩
abbrev S2x64x64 : Shape := ⟨3, ![2, 64, 64]⟩
abbrev S64 : Shape := ⟨1, ![64]⟩
abbrev S64x72 : Shape := ⟨2, ![64, 72]⟩
abbrev S64x64 : Shape := ⟨2, ![64, 64]⟩
abbrev S_ : Shape := ⟨0, ![]⟩

class Facts : Prop where
  bcast_S_S1x8192x64 : S_.BroadcastsInDim S1x8192x64 (![] : Fin 0 → Fin S1x8192x64.rank)
  reducesTo_S1x8192x64_S_d0_1_2 : S1x8192x64.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S32768x8192 : S_.BroadcastsInDim S32768x8192 (![] : Fin 0 → Fin S32768x8192.rank)
  reducesTo_S32768x8192_S_d0_1 : S32768x8192.ReducesTo [0, 1] S_
  bcast_S_S1 : S_.BroadcastsInDim S1 (![] : Fin 0 → Fin S1.rank)
  reducesTo_S1_S_d0 : S1.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S64 : S_.BroadcastsInDim S64 (![] : Fin 0 → Fin S64.rank)
  reducesTo_S64_S_d0 : S64.ReducesTo [0] S_
  bcast_S_S64x72 : S_.BroadcastsInDim S64x72 (![] : Fin 0 → Fin S64x72.rank)
  reducesTo_S64x72_S_d0_1 : S64x72.ReducesTo [0, 1] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg18 : FVec F S64x64 .f32) (main_arg19 : FVec F S64 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64x64 .f32 := Host.absf main_arg18
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_v63 main_v67

def fn_part2 {F : FTy → Type} [FloatOps F] (main_arg7 : FVec F S64 .f32) (main_arg8 : FVec F S64 .f32) (main_arg9 : FVec F S64x72 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x72 .f32 := Host.absf main_arg9
  let main_cst_16 : FVec F S_ .f32 := constant S_ .f32 0x7F800000#32
  let main_v45 : FVec F S64x72 .f32 := broadcastInDim S64x72 ![] bcast_S_S64x72 main_cst_16
  let main_v46 : IVec S64x72 1 := cmpf .olt main_v44 main_v45
  let main_c_17 : IVec S_ 1 := constantI S_ 1 1#1
  let main_v47 : IVec S_ 1 := (fun x v => Host.reduce IntOp.andi x v reducesTo_S64x72_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1 .f32) (main_arg5 : FVec F S1 .f32) (main_arg6 : FVec F S2x64x64 .f32) (main_arg7 : FVec F S64 .f32) (main_arg8 : FVec F S64 .f32) (main_arg9 : FVec F S64x72 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) (main_v13 : IVec S_ 1) (main_v16 : IVec S32768x8192 1) : IVec S_ 1 :=
  let main_c_5 : IVec S_ 1 := constantI S_ 1 1#1
  let main_v17 : IVec S_ 1 := (fun x v => Host.reduce IntOp.andi x v reducesTo_S32768x8192_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S2x64x64 .f32 := Host.absf main_arg6
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S1x8192x64 .f32) (main_arg1 : FVec F S8192x8 .f32) (main_arg2 : FVec F S32768x8192 .f32) (main_arg3 : FVec F S32768x8192 .f32) (main_arg4 : FVec F S1 .f32) (main_arg5 : FVec F S1 .f32) (main_arg6 : FVec F S2x64x64 .f32) (main_arg7 : FVec F S64 .f32) (main_arg8 : FVec F S64 .f32) (main_arg9 : FVec F S64x72 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S64x64 .f32) (main_arg18 : FVec F S64x64 .f32) (main_arg19 : FVec F S64 .f32) : IVec S_ 1 :=
  let main_v0 : FVec F S1x8192x64 .f32 := Host.absf main_arg0
  let main_cst : FVec F S_ .f32 := constant S_ .f32 0x7F800000#32
  let main_v1 : FVec F S1x8192x64 .f32 := broadcastInDim S1x8192x64 ![] bcast_S_S1x8192x64 main_cst
  let main_v2 : IVec S1x8192x64 1 := cmpf .olt main_v0 main_v1
  let main_c : IVec S_ 1 := constantI S_ 1 1#1
  let main_v3 : IVec S_ 1 := (fun x v => Host.reduce IntOp.andi x v reducesTo_S1x8192x64_S_d0_1_2 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S32768x8192 .f32 := Host.absf main_arg2
  let main_cst_2 : FVec F S_ .f32 := constant S_ .f32 0x7F800000#32
  let main_v10 : FVec F S32768x8192 .f32 := broadcastInDim S32768x8192 ![] bcast_S_S32768x8192 main_cst_2
  let main_v11 : IVec S32768x8192 1 := cmpf .olt main_v9 main_v10
  let main_c_3 : IVec S_ 1 := constantI S_ 1 1#1
  let main_v12 : IVec S_ 1 := (fun x v => Host.reduce IntOp.andi x v reducesTo_S32768x8192_S_d0_1 h_S_) main_v11 main_c_3
  let main_v13 : IVec S_ 1 := andi main_v8 main_v12
  let main_v14 : FVec F S32768x8192 .f32 := Host.absf main_arg3
  let main_cst_4 : FVec F S_ .f32 := constant S_ .f32 0x7F800000#32
  let main_v15 : FVec F S32768x8192 .f32 := broadcastInDim S32768x8192 ![] bcast_S_S32768x8192 main_cst_4
  let main_v16 : IVec S32768x8192 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S1x8192x64 : Shape := ⟨3, ![1, 8192, 64]⟩
abbrev S8192x8 : Shape := ⟨2, ![8192, 8]⟩
abbrev S32768x8192 : Shape := ⟨2, ![32768, 8192]⟩
abbrev S1 : Shape := ⟨1, ![1]⟩
abbrev S2x64x64 : Shape := ⟨3, ![2, 64, 64]⟩
abbrev S64 : Shape := ⟨1, ![64]⟩
abbrev S64x72 : Shape := ⟨2, ![64, 72]⟩
abbrev S64x64 : Shape := ⟨2, ![64, 64]⟩
abbrev S8192x64 : Shape := ⟨2, ![8192, 64]⟩
abbrev S1x64x64 : Shape := ⟨3, ![1, 64, 64]⟩
abbrev S1x64 : Shape := ⟨2, ![1, 64]⟩
abbrev S2x8192x64 : Shape := ⟨3, ![2, 8192, 64]⟩
abbrev S128x8192 : Shape := ⟨2, ![128, 8192]⟩
abbrev S128x64 : Shape := ⟨2, ![128, 64]⟩
abbrev S_ : Shape := ⟨0, ![]⟩
abbrev S72x64 : Shape := ⟨2, ![72, 64]⟩
abbrev S1024x64 : Shape := ⟨2, ![1024, 64]⟩
abbrev S1024x8 : Shape := ⟨2, ![1024, 8]⟩
abbrev S1024x72 : Shape := ⟨2, ![1024, 72]⟩
abbrev S1x524288x1 : Shape := ⟨3, ![1, 524288, 1]⟩

abbrev nBuf : Space → Nat
  | .hbm => 46
  | .vmem => 29
  | .smem => 0
  | _ => 0

abbrev bufTy : (tb : Table) → Fin (tcTables nBuf tb) → BufTy
  | .hbm, ⟨0, _⟩ => ⟨S1x8192x64, .f32⟩
  | .hbm, ⟨1, _⟩ => ⟨S8192x8, .f32⟩
  | .hbm, ⟨2, _⟩ => ⟨S32768x8192, .f32⟩
  | .hbm, ⟨3, _⟩ => ⟨S32768x8192, .f32⟩
  | .hbm, ⟨4, _⟩ => ⟨S1, .f32⟩
  | .hbm, ⟨5, _⟩ => ⟨S1, .f32⟩
  | .hbm, ⟨6, _⟩ => ⟨S2x64x64, .f32⟩
  | .hbm, ⟨7, _⟩ => ⟨S64, .f32⟩
  | .hbm, ⟨8, _⟩ => ⟨S64, .f32⟩
  | .hbm, ⟨9, _⟩ => ⟨S64x72, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64x64, .f32⟩
  | .hbm, ⟨19, _⟩ => ⟨S64, .f32⟩
  | .hbm, ⟨20, _⟩ => ⟨S8192x64, .f32⟩
  | .hbm, ⟨21, _⟩ => ⟨S1x64x64, .f32⟩
  | .hbm, ⟨22, _⟩ => ⟨S64x64, .f32⟩
  | .hbm, ⟨23, _⟩ => ⟨S1x64x64, .f32⟩
  | .hbm, ⟨24, _⟩ => ⟨S64x64, .f32⟩
  | .hbm, ⟨25, _⟩ => ⟨S64x64, .f32⟩
  | .hbm, ⟨26, _⟩ => ⟨S8192x64, .f32⟩
  | .hbm, ⟨27, _⟩ => ⟨S64x64, .f32⟩
  | .hbm, ⟨28, _⟩ => ⟨S1x64, .f32⟩
  | .hbm, ⟨29, _⟩ => ⟨S2x8192x64, .f32⟩
  | .hbm, ⟨30, _⟩ => ⟨S_, .f32⟩
  | .hbm, ⟨31, _⟩ => ⟨S8192x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S72x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S8192x64, .f32⟩
  | .hbm, ⟨45, _⟩ => ⟨S1x524288x1, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S8192x64, .f32⟩
  | .local _ .vmem, ⟨5, _⟩ => ⟨S64x64, .f32⟩
  | .local _ .vmem, ⟨6, _⟩ => ⟨S1x64, .f32⟩
  | .local _ .vmem, ⟨7, _⟩ => ⟨S1x8192x64, .f32⟩
  | .local _ .vmem, ⟨8, _⟩ => ⟨S1x8192x64, .f32⟩
  | .local _ .vmem, ⟨9, _⟩ => ⟨S1024x64, .f32⟩
  | .local _ .vmem, ⟨10, _⟩ => ⟨S1024x64, .f32⟩
  | .local _ .vmem, ⟨11, _⟩ => ⟨S1024x8, .f32⟩
  | .local _ .vmem, ⟨12, _⟩ => ⟨S1024x8, .f32⟩
  | .local _ .vmem, ⟨13, _⟩ => ⟨S1024x64, .f32⟩
  | .local _ .vmem, ⟨14, _⟩ => ⟨S1024x64, .f32⟩
  | .local _ .vmem, ⟨15, _⟩ => ⟨S1x64, .f32⟩
  | .local _ .vmem, ⟨16, _⟩ => ⟨S72x64, .f32⟩
  | .local _ .vmem, ⟨17, _⟩ => ⟨S1x64, .f32⟩
  | .local _ .vmem, ⟨18, _⟩ => ⟨S64x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S1024x64, .f32⟩
  | .local _ .vmem, ⟨28, _⟩ => ⟨S1024x64, .f32⟩
  | _, _ => ⟨S1x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem15_1 : DmaSem sig := 28

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S72x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1024x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  shapeCasts_S1x8192x64_S8192x64 : S1x8192x64.ShapeCasts S8192x64
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  transposes_S64x64_S64x64_1_0 : S64x64.Transposes [1, 0] S64x64
  shapeCasts_S64_S1x64 : S64.ShapeCasts S1x64
  inb_S1x8192x64_S1x8192x64_0_0_0 : ∀ a, (![0, 0, 0] : Fin 3 → Nat) a + S1x8192x64.size a ≤ S1x8192x64.size a
  h_S1x8192x64 : 0 < S1x8192x64.numel
  shapeCasts_S8192x64_S1x8192x64 : S8192x64.ShapeCasts S1x8192x64
  inb_S128x8192_S128x8192_0_0 : ∀ a, (![0, 0] : Fin 2 → Nat) a + S128x8192.size a ≤ S128x8192.size a
  h_S128x8192 : 0 < S128x8192.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reducesTo_S2x8192x64_S8192x64_d0 : S2x8192x64.ReducesTo [0] S8192x64
  h_S_ : 0 < S_.numel
  transposes_S64x72_S72x64_1_0 : S64x72.Transposes [1, 0] S72x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S1x64_S1024x64 : S1x64.Broadcasts S1024x64
  inb_S1024x8_S1024x8_0_0 : ∀ a, (![0, 0] : Fin 2 → Nat) a + S1024x8.size a ≤ S1024x8.size a
  h_S1024x8 : 0 < S1024x8.numel
  concatenates_S1024x8_S1024x64_S1024x72_d1 : Shape.Concatenates [S1024x8, S1024x64] S1024x72 1
  inb_S72x64_S72x64_0_0 : ∀ a, (![0, 0] : Fin 2 → Nat) a + S72x64.size a ≤ S72x64.size a
  h_S72x64 : 0 < S72x64.numel
  shapeCasts_S72x64_S72x64 : S72x64.ShapeCasts S72x64
  shapeCasts_S8192x64_S1x524288x1 : S8192x64.ShapeCasts S1x524288x1
  dot_S8192x64_S64x64_S8192x64_1_0_0_1_n_n_wf : DotDims.WF S8192x64 S64x64 S8192x64 [1] [0] [0] [1] [] []
  dot_S128x8192_S8192x64_S128x64_1_0_0_1_n_n_wf : DotDims.WF S128x8192 S8192x64 S128x64 [1] [0] [0] [1] [] []
  dot_S128x64_S64x64_S128x64_1_0_0_1_n_n_wf : DotDims.WF S128x64 S64x64 S128x64 [1] [0] [0] [1] [] []
  dot_S128x8192_S128x64_S8192x64_0_0_1_1_n_n_wf : DotDims.WF S128x8192 S128x64 S8192x64 [0] [0] [1] [1] [] []
  dot_S1024x72_S72x64_S1024x64_1_0_0_1_n_n_wf : DotDims.WF S1024x72 S72x64 S1024x64 [1] [0] [0] [1] [] []
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S32768x8192.size a
  hwx0_0 : ∀ i : grid0.Coords, EltTy.bits .f32 = 32 ∨ (Rect.block (s := S32768x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S32768x8192.size a
  hwx0_1 : ∀ i : grid0.Coords, EltTy.bits .f32 = 32 ∨ (Rect.block (s := S32768x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192x64.size a ≤ S2x8192x64.size a
  hwx0_5 : ∀ i : grid0.Coords, EltTy.bits .f32 = 32 ∨ (Rect.block (s := S2x8192x64) S1x8192x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S8192x64.size a
  hwx1_0 : ∀ i : grid1.Coords, EltTy.bits .f32 = 32 ∨ (Rect.block (s := S8192x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x8.size a ≤ S8192x8.size a
  hwx1_1 : ∀ i : grid1.Coords, EltTy.bits .f32 = 32 ∨ (Rect.block (s := S8192x8) S1024x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S72x64.size a ≤ S72x64.size a
  hwx1_4 : ∀ i : grid1.Coords, EltTy.bits .f32 = 32 ∨ (Rect.block (s := S72x64) S72x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x64.size a ≤ S64x64.size a
  hwx1_12 : ∀ i : grid1.Coords, EltTy.bits .f32 = 32 ∨ (Rect.block (s := S64x64) S64x64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x64.size a ≤ S64x64.size a
  hwx1_13 : ∀ i : grid1.Coords, EltTy.bits .f32 = 32 ∨ (Rect.block (s := S64x64) S64x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x64.size a ≤ S1x64.size a
  hwx1_14 : ∀ i : grid1.Coords, EltTy.bits .f32 = 32 ∨ (Rect.block (s := S1x64) S1x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1024x64.size a ≤ S8192x64.size a
  hwx1_15 : ∀ i : grid1.Coords, EltTy.bits .f32 = 32 ∨ (Rect.block (s := S8192x64) S1024x64.size (cc1_transform_15 i) (hinb1_15 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x8192_S128x64_S8192x64_0_0_1_1_n_n : DotDims S128x8192 S128x64 S8192x64 where
  lhsContracting := [0]
  rhsContracting := [0]
  lhsNonContracting := [1]
  rhsNonContracting := [1]
  lhsBatch := []
  rhsBatch := []
  wf := dot_S128x8192_S128x64_S8192x64_0_0_1_1_n_n_wf
def dot_S1024x72_S72x64_S1024x64_1_0_0_1_n_n : DotDims S1024x72 S72x64 S1024x64 where
  lhsContracting := [1]
  rhsContracting := [0]
  lhsNonContracting := [0]
  rhsNonContracting := [1]
  lhsBatch := []
  rhsBatch := []
  wf := dot_S1024x72_S72x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg2) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x8192x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S72x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v14) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v21) S64x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v22) S64x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v15) S1x64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v23) S1024x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S1x8192x64 : Shape := ⟨3, ![1, 8192, 64]⟩
abbrev S8192x8 : Shape := ⟨2, ![8192, 8]⟩
abbrev S32768x8192 : Shape := ⟨2, ![32768, 8192]⟩
abbrev S1 : Shape := ⟨1, ![1]⟩
abbrev S2x64x64 : Shape := ⟨3, ![2, 64, 64]⟩
abbrev S64 : Shape := ⟨1, ![64]⟩
abbrev S64x72 : Shape := ⟨2, ![64, 72]⟩
abbrev S64x64 : Shape := ⟨2, ![64, 64]⟩
abbrev S8192x64 : Shape := ⟨2, ![8192, 64]⟩
abbrev S1x64x64 : Shape := ⟨3, ![1, 64, 64]⟩
abbrev S32768x64 : Shape := ⟨2, ![32768, 64]⟩
abbrev S1x64 : Shape := ⟨2, ![1, 64]⟩
abbrev S_ : Shape := ⟨0, ![]⟩
abbrev S8192x32768 : Shape := ⟨2, ![8192, 32768]⟩
abbrev S8192x72 : Shape := ⟨2, ![8192, 72]⟩
abbrev S72x64 : Shape := ⟨2, ![72, 64]⟩
abbrev S1x524288x1 : Shape := ⟨3, ![1, 524288, 1]⟩

abbrev nBuf : Space → Nat
  | .hbm => 101
  | .vmem => 0
  | .smem => 0
  | _ => 0

abbrev bufTy : (tb : Table) → Fin (tcTables nBuf tb) → BufTy
  | .hbm, ⟨0, _⟩ => ⟨S1x8192x64, .f32⟩
  | .hbm, ⟨1, _⟩ => ⟨S8192x8, .f32⟩
  | .hbm, ⟨2, _⟩ => ⟨S32768x8192, .f32⟩
  | .hbm, ⟨3, _⟩ => ⟨S32768x8192, .f32⟩
  | .hbm, ⟨4, _⟩ => ⟨S1, .f32⟩
  | .hbm, ⟨5, _⟩ => ⟨S1, .f32⟩
  | .hbm, ⟨6, _⟩ => ⟨S2x64x64, .f32⟩
  | .hbm, ⟨7, _⟩ => ⟨S64, .f32⟩
  | .hbm, ⟨8, _⟩ => ⟨S64, .f32⟩
  | .hbm, ⟨9, _⟩ => ⟨S64x72, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64x64, .f32⟩
  | .hbm, ⟨19, _⟩ => ⟨S64, .f32⟩
  | .hbm, ⟨20, _⟩ => ⟨S8192x64, .f32⟩
  | .hbm, ⟨21, _⟩ => ⟨S32768x8192, .f32⟩
  | .hbm, ⟨22, _⟩ => ⟨S1x64x64, .f32⟩
  | .hbm, ⟨23, _⟩ => ⟨S64x64, .f32⟩
  | .hbm, ⟨24, _⟩ => ⟨S64x64, .f32⟩
  | .hbm, ⟨25, _⟩ => ⟨S8192x64, .f32⟩
  | .hbm, ⟨26, _⟩ => ⟨S32768x64, .f32⟩
  | .hbm, ⟨27, _⟩ => ⟨S1x64, .f32⟩
  | .hbm, ⟨28, _⟩ => ⟨S32768x64, .f32⟩
  | .hbm, ⟨29, _⟩ => ⟨S32768x64, .f32⟩
  | .hbm, ⟨30, _⟩ => ⟨S_, .f32⟩
  | .hbm, ⟨31, _⟩ => ⟨S32768x64, .f32⟩
  | .hbm, ⟨32, _⟩ => ⟨S32768x64, .f32⟩
  | .hbm, ⟨33, _⟩ => ⟨S8192x32768, .f32⟩
  | .hbm, ⟨34, _⟩ => ⟨S1x64x64, .f32⟩
  | .hbm, ⟨35, _⟩ => ⟨S64x64, .f32⟩
  | .hbm, ⟨36, _⟩ => ⟨S64x64, .f32⟩
  | .hbm, ⟨37, _⟩ => ⟨S32768x64, .f32⟩
  | .hbm, ⟨38, _⟩ => ⟨S8192x64, .f32⟩
  | .hbm, ⟨39, _⟩ => ⟨S1x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S8192x72, .f32⟩
  | .hbm, ⟨46, _⟩ => ⟨S72x64, .f32⟩
  | .hbm, ⟨47, _⟩ => ⟨S8192x64, .f32⟩
  | .hbm, ⟨48, _⟩ => ⟨S1x64, .f32⟩
  | .hbm, ⟨49, _⟩ => ⟨S8192x64, .f32⟩
  | .hbm, ⟨50, _⟩ => ⟨S8192x64, .f32⟩
  | .hbm, ⟨51, _⟩ => ⟨S8192x64, .f32⟩
  | .hbm, ⟨52, _⟩ => ⟨S64x64, .f32⟩
  | .hbm, ⟨53, _⟩ => ⟨S8192x64, .f32⟩
  | .hbm, ⟨54, _⟩ => ⟨S64x64, .f32⟩
  | .hbm, ⟨55, _⟩ => ⟨S8192x64, .f32⟩
  | .hbm, ⟨56, _⟩ => ⟨S8192x64, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S8192x64, .f32⟩
  | .hbm, ⟨64, _⟩ => ⟨S8192x64, .f32⟩
  | .hbm, ⟨65, _⟩ => ⟨S_, .f32⟩
  | .hbm, ⟨66, _⟩ => ⟨S8192x64, .f32⟩
  | .hbm, ⟨67, _⟩ => ⟨S8192x64, .f32⟩
  | .hbm, ⟨68, _⟩ => ⟨S64x64, .f32⟩
  | .hbm, ⟨69, _⟩ => ⟨S8192x64, .f32⟩
  | .hbm, ⟨70, _⟩ => ⟨S64x64, .f32⟩
  | .hbm, ⟨71, _⟩ => ⟨S8192x64, .f32⟩
  | .hbm, ⟨72, _⟩ => ⟨S8192x64, .f32⟩
  | .hbm, ⟨73, _⟩ => ⟨S1x64, .f32⟩
  | .hbm, ⟨74, _⟩ => ⟨S8192x64, .f32⟩
  | .hbm, ⟨75, _⟩ => ⟨S8192x64, .f32⟩
  | .hbm, ⟨76, _⟩ => ⟨S8192x64, .f32⟩
  | .hbm, ⟨77, _⟩ => ⟨S8192x64, .f32⟩
  | .hbm, ⟨78, _⟩ => ⟨S_, .f32⟩
  | .hbm, ⟨79, _⟩ => ⟨S8192x64, .f32⟩
  | .hbm, ⟨80, _⟩ => ⟨S8192x64, .f32⟩
  | .hbm, ⟨81, _⟩ => ⟨S_, .f32⟩
  | .hbm, ⟨82, _⟩ => ⟨S8192x64, .f32⟩
  | .hbm, ⟨83, _⟩ => ⟨S8192x64, .f32⟩
  | .hbm, ⟨84, _⟩ => ⟨S64x64, .f32⟩
  | .hbm, ⟨85, _⟩ => ⟨S8192x64, .f32⟩
  | .hbm, ⟨86, _⟩ => ⟨S8192x64, .f32⟩
  | .hbm, ⟨87, _⟩ => ⟨S64x64, .f32⟩
  | .hbm, ⟨88, _⟩ => ⟨S8192x64, .f32⟩
  | .hbm, ⟨89, _⟩ => ⟨S8192x64, .f32⟩
  | .hbm, ⟨90, _⟩ => ⟨S1x64, .f32⟩
  | .hbm, ⟨91, _⟩ => ⟨S8192x64, .f32⟩
  | .hbm, ⟨92, _⟩ => ⟨S8192x64, .f32⟩
  | .hbm, ⟨93, _⟩ => ⟨S8192x64, .f32⟩
  | .hbm, ⟨94, _⟩ => ⟨S_, .f32⟩
  | .hbm, ⟨95, _⟩ => ⟨S8192x64, .f32⟩
  | .hbm, ⟨96, _⟩ => ⟨S8192x64, .f32⟩
  | .hbm, ⟨97, _⟩ => ⟨S8192x64, .f32⟩
  | .hbm, ⟨98, _⟩ => ⟨S8192x64, .f32⟩
  | .hbm, ⟨99, _⟩ => ⟨S8192x64, .f32⟩
  | .hbm, ⟨100, _⟩ => ⟨S1x524288x1, .f32⟩
  | _, _ => ⟨S1x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call0_cst : Ref sig .tc := ⟨.hbm, 30, rfl⟩
abbrev main_call0_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_cst : Ref sig .tc := ⟨.hbm, 42, rfl⟩
abbrev main_call1_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_cst_0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_1 : Ref sig .tc := ⟨.hbm, 78, rfl⟩
abbrev main_v52 : Ref sig .tc := ⟨.hbm, 79, rfl⟩
abbrev main_v53 : Ref sig .tc := ⟨.hbm, 80, rfl⟩
abbrev main_cst_2 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_3 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  shapeCasts_S1x8192x64_S8192x64 : S1x8192x64.ShapeCasts S8192x64
  slices_S2x64x64_S1x64x64_0_0_0 : S2x64x64.Slices ![0, 0, 0] S1x64x64
  shapeCasts_S1x64x64_S64x64 : S1x64x64.ShapeCasts S64x64
  transposes_S64x64_S64x64_1_0 : S64x64.Transposes [1, 0] S64x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  transposes_S32768x8192_S8192x32768_1_0 : S32768x8192.Transposes [1, 0] S8192x32768
  slices_S2x64x64_S1x64x64_1_0_0 : S2x64x64.Slices ![1, 0, 0] S1x64x64
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  concatenates_S8192x8_S8192x64_S8192x72_d1 : Shape.Concatenates [S8192x8, S8192x64] S8192x72 1
  transposes_S64x72_S72x64_1_0 : S64x72.Transposes [1, 0] S72x64
  shapeCasts_S8192x64_S1x524288x1 : S8192x64.ShapeCasts S1x524288x1
  dot_S8192x64_S64x64_S8192x64_1_0_0_1_n_n_wf : DotDims.WF S8192x64 S64x64 S8192x64 [1] [0] [0] [1] [] []
  dot_S32768x8192_S8192x64_S32768x64_1_0_0_1_n_n_wf : DotDims.WF S32768x8192 S8192x64 S32768x64 [1] [0] [0] [1] [] []
  dot_S32768x64_S64x64_S32768x64_1_0_0_1_n_n_wf : DotDims.WF S32768x64 S64x64 S32768x64 [1] [0] [0] [1] [] []
  dot_S8192x32768_S32768x64_S8192x64_1_0_0_1_n_n_wf : DotDims.WF S8192x32768 S32768x64 S8192x64 [1] [0] [0] [1] [] []
  dot_S8192x72_S72x64_S8192x64_1_0_0_1_n_n_wf : DotDims.WF S8192x72 S72x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S32768x8192_S8192x64_S32768x64_1_0_0_1_n_n : DotDims S32768x8192 S8192x64 S32768x64 where
  lhsContracting := [1]
  rhsContracting := [0]
  lhsNonContracting := [0]
  rhsNonContracting := [1]
  lhsBatch := []
  rhsBatch := []
  wf := dot_S32768x8192_S8192x64_S32768x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S8192x32768_S32768x64_S8192x64_1_0_0_1_n_n : DotDims S8192x32768 S32768x64 S8192x64 where
  lhsContracting := [1]
  rhsContracting := [0]
  lhsNonContracting := [0]
  rhsNonContracting := [1]
  lhsBatch := []
  rhsBatch := []
  wf := dot_S8192x32768_S32768x64_S8192x64_1_0_0_1_n_n_wf
def dot_S8192x72_S72x64_S8192x64_1_0_0_1_n_n : DotDims S8192x72 S72x64 S8192x64 where
  lhsContracting := [1]
  rhsContracting := [0]
  lhsNonContracting := [0]
  rhsNonContracting := [1]
  lhsBatch := []
  rhsBatch := []
  wf := dot_S8192x72_S72x64_S8192x64_1_0_0_1_n_n_wf

class Facts : Prop extends Facts₀ where

variable [Facts]
-- ==== Proof.Spec.lean ====
/-
  The specification: what both programs compute, index by index, over the extended reals.

  Clause pass.  With the signed incidence `cm r n = pos r n - neg r n` (clauses `r`, variables `n`), the forward
  variable embedding `vf`, the clause bias `cb` and the second feedback matrix transposed `fb1T`:
    clause r k = max (Σ n, cm r n · vf n k + cb k) 0,   msg r d = Σ k, clause r k · fb1T k d,
    nv n d     = Σ r, cm r n · msg r d                   (the message back to variable `n`).
  The kernel forms the last sum tile by tile — 256 tiles of 128 clause rows, two halves of 128 tiles each accumulated
  apart and then added — which is the same sum regrouped (`nv_split`): addition of extended reals is commutative and
  associative, so no finiteness is needed.

  Variable update (one row at a time): the ground combiner `tanh (concat [g, relu (nv + vb)] · WgT + bg)` and the
  gated recurrent update against the previous embedding `pv`.
-/
import Idealize.ShloMosaic.PureOps.Ideal.Laws

noncomputable section

namespace Cert.Spec

open Idealize.ShloMosaic

/-- The float zero and one, as the programs spell them. -/
abbrev z0 : EReal := Ideal.ofBits .f32 0x00000000#32
abbrev one : EReal := Ideal.ofBits .f32 0x3F800000#32

theorem z0_eq : z0 = 0 := Ideal.ofBits_zero_f32

theorem one_eq : one = 1 := by
  have h : one = ((1 : ℝ) : EReal) := by
    simp [one, Ideal.ofBits, Ideal.ieee, -EReal.coe_mul]
    norm_num
  rw [h, EReal.coe_one]

/-- The logistic function spelt as a quotient of the programs' literal one is the library's. -/
theorem logistic_quot (x : EReal) : Ideal.div one (one + Ideal.exp (-x)) = Ideal.logistic x := by
  rw [one_eq]; rfl

section Clause

variable (pos neg : Fin 32768 → Fin 8192 → EReal) (vf : Fin 8192 → Fin 64 → EReal) (cb : Fin 64 → EReal)
  (fb1T : Fin 64 → Fin 64 → EReal)

/-- The signed incidence of clause `r` and variable `n`. -/
def cm (r : Fin 32768) (n : Fin 8192) : EReal := pos r n - neg r n

/-- Clause `r`'s embedding, feature `k`. -/
def clause (r : Fin 32768) (k : Fin 64) : EReal := max ((∑ n : Fin 8192, cm pos neg r n * vf n k) + cb k) z0

/-- Clause `r`'s message, feature `d`. -/
def msg (r : Fin 32768) (d : Fin 64) : EReal := ∑ k : Fin 64, clause pos neg vf cb r k * fb1T k d

/-- What variable `n` receives, feature `d`: the sum over all clauses. -/
def nv (n : Fin 8192) (d : Fin 64) : EReal := ∑ r : Fin 32768, cm pos neg r n * msg pos neg vf cb fb1T r d

/-- Row `q` of tile `t` is clause `128 t + q`. -/
def rowOf (t : Fin 256) (q : Fin 128) : Fin 32768 := ⟨t.val * 128 + q.val, by have := t.isLt; have := q.isLt; omega⟩

/-- Tile `t`'s contribution to variable `n`, feature `d`. -/
def tile (t : Fin 256) (n : Fin 8192) (d : Fin 64) : EReal :=
  ∑ q : Fin 128, cm pos neg (rowOf t q) n * msg pos neg vf cb fb1T (rowOf t q) d

/-- Tile `i` of half `h`. -/
def tileOf (h : Fin 2) (i : Fin 128) : Fin 256 := ⟨h.val * 128 + i.val, by have := h.isLt; have := i.isLt; omega⟩

end Clause

section Update

variable (nvr : Fin 64 → EReal) (g : Fin 8 → EReal) (pv : Fin 64 → EReal) (vb bg bz br bh : Fin 64 → EReal)
  (WgT : Fin 72 → Fin 64 → EReal) (WzT UzT WrT UrT WhT UhT : Fin 64 → Fin 64 → EReal)

/-- The combiner's input row: the eight ground features, then the rectified message plus bias. -/
def cat (j : Fin 72) : EReal :=
  if h : j.val < 8 then g ⟨j.val, h⟩
  else max (nvr ⟨j.val - 8, by have := j.isLt; omega⟩ + vb ⟨j.val - 8, by have := j.isLt; omega⟩) z0

/-- The combined embedding. -/
def emb (k : Fin 64) : EReal := Ideal.tanh ((∑ j : Fin 72, cat nvr g vb j * WgT j k) + bg k)

/-- The update gate. -/
def zg (d : Fin 64) : EReal :=
  Ideal.logistic (((∑ k : Fin 64, emb nvr g vb bg WgT k * WzT k d) + (∑ k : Fin 64, pv k * UzT k d)) + bz d)

/-- The reset gate. -/
def rg (d : Fin 64) : EReal :=
  Ideal.logistic (((∑ k : Fin 64, emb nvr g vb bg WgT k * WrT k d) + (∑ k : Fin 64, pv k * UrT k d)) + br d)

/-- The candidate state. -/
def hg (d : Fin 64) : EReal :=
  Ideal.tanh (((∑ k : Fin 64, emb nvr g vb bg WgT k * WhT k d)
    + (∑ k : Fin 64, (rg nvr g pv vb bg br WgT WrT UrT k * pv k) * UhT k d)) + bh d)

/-- The new embedding of one variable, feature `d`. -/
def out (d : Fin 64) : EReal :=
  (one - zg nvr g pv vb bg bz WgT WzT UzT d) * pv d
    + zg nvr g pv vb bg bz WgT WzT UzT d * hg nvr g pv vb bg br bh WgT WrT UrT WhT UhT d

end Update

end Cert.Spec

end
-- ==== Proof.SpecSplit.lean ====
/-
  The sum over all 32768 clauses regrouped as the kernel forms it: two halves, 128 tiles a half, 128 clause rows a
  tile. Addition of extended reals is commutative and associative, so this is a re-indexing of one finite sum.
-/
import proofs.«166183_j24507083391172_1_alg».proof.Proof.Spec
import Mathlib.Algebra.BigOperators.Fin
import Mathlib.Logic.Equiv.Fin.Basic

noncomputable section

namespace Cert.Spec

/-- Halves and the tiles of a half enumerate the 256 tiles: `(h, i) ↦ 128 h + i`. -/
def tileEquiv : Fin 2 × Fin 128 ≃ Fin 256 where
  toFun p := tileOf p.1 p.2
  invFun t := (⟨t.val / 128, by have := t.isLt; omega⟩, ⟨t.val % 128, by omega⟩)
  left_inv := by
    rintro ⟨h, i⟩
    have hh := h.isLt
    have hi := i.isLt
    refine Prod.ext (Fin.ext ?_) (Fin.ext ?_)
    · show (h.val * 128 + i.val) / 128 = h.val
      omega
    · show (h.val * 128 + i.val) % 128 = i.val
      omega
  right_inv := by
    intro t
    refine Fin.ext ?_
    show t.val / 128 * 128 + t.val % 128 = t.val
    omega

/-- Tiles and the rows of a tile enumerate the 32768 clauses: `(t, q) ↦ 128 t + q`. -/
def rowEquiv : Fin 256 × Fin 128 ≃ Fin 32768 where
  toFun p := rowOf p.1 p.2
  invFun r := (⟨r.val / 128, by have := r.isLt; omega⟩, ⟨r.val % 128, by omega⟩)
  left_inv := by
    rintro ⟨t, q⟩
    have ht := t.isLt
    have hq := q.isLt
    refine Prod.ext (Fin.ext ?_) (Fin.ext ?_)
    · show (t.val * 128 + q.val) / 128 = t.val
      omega
    · show (t.val * 128 + q.val) % 128 = q.val
      omega
  right_inv := by
    intro r
    refine Fin.ext ?_
    show r.val / 128 * 128 + r.val % 128 = r.val
    omega

/-- A sum over the clauses is the sum over halves, tiles of a half and rows of a tile. -/
theorem sum_rows (f : Fin 32768 → EReal) :
    ∑ r : Fin 32768, f r = ∑ h : Fin 2, ∑ i : Fin 128, ∑ q : Fin 128, f (rowOf (tileOf h i) q) := by
  have h1 : ∑ r : Fin 32768, f r = ∑ t : Fin 256, ∑ q : Fin 128, f (rowOf t q) := by
    rw [← rowEquiv.sum_comp f, Fintype.sum_prod_type]
    rfl
  have h2 : ∑ t : Fin 256, ∑ q : Fin 128, f (rowOf t q)
      = ∑ h : Fin 2, ∑ i : Fin 128, ∑ q : Fin 128, f (rowOf (tileOf h i) q) := by
    rw [← tileEquiv.sum_comp (fun t => ∑ q : Fin 128, f (rowOf t q)), Fintype.sum_prod_type]
    rfl
  exact h1.trans h2

/-- The message a variable receives is the sum of the tiles' contributions, half by half. -/
theorem nv_split (pos neg : Fin 32768 → Fin 8192 → EReal) (vf : Fin 8192 → Fin 64 → EReal) (cb : Fin 64 → EReal)
    (fb1T : Fin 64 → Fin 64 → EReal) (n : Fin 8192) (d : Fin 64) :
    nv pos neg vf cb fb1T n d = ∑ h : Fin 2, ∑ i : Fin 128, tile pos neg vf cb fb1T (tileOf h i) n d := by
  unfold nv tile
  exact sum_rows _

end Cert.Spec

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.R0Pay.lean ====
/-
  The clause-pass body's stored value read at an index, over the extended reals: what one grid point adds to the
  accumulator block is the tile's contribution `Σ q, cm q n · msg q d` of its 128 clause rows, on top of what the
  block held.
-/
import proofs.«166183_j24507083391172_1_alg».proof.Proof.Gen.KernelIdeal.Skeleton
import proofs.«166183_j24507083391172_1_alg».proof.Proof.Spec
import proofs.«166183_j24507083391172_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R0

open Cert.KernelIdeal Cert.KernelIdeal.Gen Idealize.ShloMosaic Idealize.ShloMosaic.ValueIdx

/-- A matrix product contracting the ROWS of both operands, `[K,M]ᵀ·[K,N]`, into the zero accumulator, read at
    `(p, c)`: the sum over `k` of `lhs (k, p) · rhs (k, c)`. -/
private theorem matmulT_apply {M K N : ℕ} {φ₁ φ₂ : FTy}
    (wf : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂)
    (p : Fin M) (c : Fin N) :
    FloatOps.matmul (⟨[0], [0], [1], [1], [], [], wf⟩ : DotDims ⟨2, ![K, M]⟩ ⟨2, ![K, N]⟩ ⟨2, ![M, N]⟩) prec lhs rhs
        (constant ⟨2, ![M, N]⟩ .f32 0x00000000#32) (ix2 p c)
      = ∑ k : Fin K, lhs (ix2 k p) * rhs (ix2 k c) := by
  set D : DotDims ⟨2, ![K, M]⟩ ⟨2, ![K, N]⟩ ⟨2, ![M, N]⟩ := ⟨[0], [0], [1], [1], [], [], wf⟩ with hD
  have l0 : ∀ (i : (⟨2, ![M, N]⟩ : Shape).Idx) (q : D.contr.Idx), (D.lhsIdx i q 0).val = (q ⟨0, Nat.one_pos⟩).val :=
    fun i q => D.lhsIdx_val_of_single rfl i q
  have l1 : ∀ (i : (⟨2, ![M, N]⟩ : Shape).Idx) (q : D.contr.Idx), (D.lhsIdx i q 1).val = (i 0).val := by
    intro i q
    unfold DotDims.lhsIdx
    rw [dif_neg (show ¬(1 : Fin 2) ∈ D.lhsBatch from List.not_mem_nil), dif_pos (show (1 : Fin 2) ∈ D.lhsNonContracting from List.mem_singleton.mpr rfl)]
    rfl
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 k p := funext fun ax => Fin.ext (by
    match ax with
    | ⟨0, _⟩ => exact (l0 _ _).trans hk
    | ⟨1, _⟩ => exact l1 _ _)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

/-- The message of row `q` of a tile, feature `d`, from the tile's blocks: the positive and negative incidence
    rows `x0`, `x1`, the forward embedding `x2`, the transposed feedback matrix `x3`, the clause bias `x4`. -/
def blkMsg (x0 x1 : Vec Ideal S128x8192 .f32) (x2 : Vec Ideal S8192x64 .f32) (x3 : Vec Ideal S64x64 .f32)
    (x4 : Vec Ideal S1x64 .f32) (q : Fin 128) (d : Fin 64) : EReal :=
  ∑ k : Fin 64, max ((∑ j : Fin 8192, (x0 (ix2 q j) - x1 (ix2 q j)) * x2 (ix2 j k)) + x4 (ix2 (0 : Fin 1) k)) Spec.z0
    * x3 (ix2 k d)

/-- The tile's contribution to variable `n`, feature `d`. -/
def blkTile (x0 x1 : Vec Ideal S128x8192 .f32) (x2 : Vec Ideal S8192x64 .f32) (x3 : Vec Ideal S64x64 .f32)
    (x4 : Vec Ideal S1x64 .f32) (n : Fin 8192) (d : Fin 64) : EReal :=
  ∑ q : Fin 128, (x0 (ix2 q n) - x1 (ix2 q n)) * blkMsg x0 x1 x2 x3 x4 q d

/-- The reset store writes the float zero everywhere. -/
theorem pay1_apply (n : Fin 8192) (d : Fin 64) : k0_pay1 (F := Ideal) (ix3 (0 : Fin 1) n d) = Spec.z0 := by
  unfold k0_pay1
  exact shapeCast_ab_1ab_apply _ _ (0 : Fin 1) n d

/-- The accumulating store writes the block's old value plus the tile's contribution. -/
theorem pay2_apply (x0 x1 : Vec Ideal S128x8192 .f32) (x2 : Vec Ideal S8192x64 .f32) (x3 : Vec Ideal S64x64 .f32)
    (x4 : Vec Ideal S1x64 .f32) (xo : Vec Ideal S1x8192x64 .f32) (n : Fin 8192) (d : Fin 64) :
    k0_pay2 (F := Ideal) x0 x1 x2 x4 x3 xo (ix3 (0 : Fin 1) n d)
      = xo (ix3 (0 : Fin 1) n d) + blkTile x0 x1 x2 x3 x4 n d := by
  unfold k0_pay2
  -- the outer casts and the accumulation
  refine (shapeCast_ab_1ab_apply _ _ (0 : Fin 1) n d).trans ?_
  refine (addf_apply _ _ _).trans ?_
  refine congrArg₂ (· + ·) (shapeCast_1ab_ab_apply _ _ n d) ?_
  -- the product back to the variables: a sum over the tile's rows
  refine (matmulT_apply _ none _ _ n d).trans ?_
  unfold blkTile
  refine Finset.sum_congr rfl fun q _ => ?_
  refine congrArg₂ (· * ·) rfl ?_
  -- the message of row q: a sum over the clause features
  rw [truncf_apply]
  refine (Cert.RowOps.matmul_apply _ none _ _ q d).trans ?_
  unfold blkMsg
  refine Finset.sum_congr rfl fun k _ => ?_
  refine congrArg₂ (· * ·) ?_ ?_
  · -- the rectified clause embedding
    rw [truncf_apply]
    refine (maximumf_apply _ _ _).trans ?_
    refine congrArg₂ max ?_ rfl
    refine (addf_apply _ _ _).trans ?_
    refine congrArg₂ (· + ·) ?_ (Cert.RowOps.rowParam_spread_apply _ _ _ q k)
    refine (Cert.RowOps.matmul_apply _ none _ _ q k).trans ?_
    refine Finset.sum_congr rfl fun j _ => ?_
    refine congrArg₂ (· * ·) rfl ?_
    rw [truncf_apply, shapeCast_self]
  · rw [truncf_apply, shapeCast_self]

end Cert.KernelIdeal.R0

end
-- ==== Proof.R0Pieces.lean ====
/-
  What one grid point of the clause pass leaves in the accumulator's staging buffer, as a value: at the first point of
  a half the body stores the zero block and then, reading it back, the zero block plus the tile's contribution; at
  every other point the block it found plus the tile's contribution. Both are the accumulating store's value `k0_pay2`
  of the point's input blocks and of the block read back.
-/
import proofs.«166183_j24507083391172_1_alg».proof.Proof.Gen.KernelIdeal.Frame
import Idealize.ShloMosaic.Lib.Pipeline.Value
import Idealize.ShloMosaic.Lib.Tactic

set_option maxRecDepth 16384

noncomputable section

namespace Cert.KernelIdeal.R0P

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its half: the block found, plus the tile's contribution. -/
theorem out_B (c : Dev nD) (i : grid0.Coords) (a2 : Memref sig .tc .vmem S128x8192 .f32) (h2 : a2.IsWhole)
    (a3 : Memref sig .tc .vmem S128x8192 .f32) (h3 : a3.IsWhole) (a4 : Memref sig .tc .vmem S8192x64 .f32) (h4 : a4.IsWhole)
    (a5 : Memref sig .tc .vmem S64x64 .f32) (h5 : a5.IsWhole) (a6 : Memref sig .tc .vmem S1x64 .f32) (h6 : a6.IsWhole)
    (a7 : Memref sig .tc .vmem S1x8192x64 .f32) (h7 : a7.IsWhole) (hc : ¬cond0_0 i)
    (x0 x1 : Vec F S128x8192 .f32) (x2 : Vec F S8192x64 .f32) (x3 : Vec F S64x64 .f32) (x4 : Vec F S1x64 .f32)
    (xo : Vec F S1x8192x64 .f32) :
    out0_B_5 c i a2 h2 a3 h3 a4 h4 a5 h5 a6 h6 a7 h7 hc x0 x1 x2 x3 x4 xo = k0_pay2 x0 x1 x2 x4 x3 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz3]
  simp only [View.readAt_eq_ld, h2.read_unread, h3.read_unread, h4.read_unread, h5.read_unread, h6.read_unread,
    h7.read_unread, View.ld_unit_zero (S := S128x8192) hz2, View.ld_unit_zero (S := S8192x64) hz2,
    View.ld_unit_zero (S := S1x64) hz2, View.ld_unit_zero (S := S64x64) hz2, View.ld_unit_zero (S := S1x8192x64) hz3]

/-- The first point of a half: the zero block, plus the tile's contribution. -/
theorem out_A (c : Dev nD) (i : grid0.Coords) (a2 : Memref sig .tc .vmem S128x8192 .f32) (h2 : a2.IsWhole)
    (a3 : Memref sig .tc .vmem S128x8192 .f32) (h3 : a3.IsWhole) (a4 : Memref sig .tc .vmem S8192x64 .f32) (h4 : a4.IsWhole)
    (a5 : Memref sig .tc .vmem S64x64 .f32) (h5 : a5.IsWhole) (a6 : Memref sig .tc .vmem S1x64 .f32) (h6 : a6.IsWhole)
    (a7 : Memref sig .tc .vmem S1x8192x64 .f32) (h7 : a7.IsWhole) (hc : cond0_0 i)
    (x0 x1 : Vec F S128x8192 .f32) (x2 : Vec F S8192x64 .f32) (x3 : Vec F S64x64 .f32) (x4 : Vec F S1x64 .f32) :
    out0_A_5 c i a2 h2 a3 h3 a4 h4 a5 h5 a6 h6 a7 h7 hc x0 x1 x2 x3 x4 = k0_pay2 x0 x1 x2 x4 x3 (k0_pay1 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x8192x64) hz3]
  simp only [View.readAt_eq_ld, h2.read_unread, h3.read_unread, h4.read_unread, h5.read_unread, h6.read_unread,
    View.readCov_unit_zero (S := S1x8192x64) _ hz3,
    View.ld_unit_zero (S := S128x8192) hz2, View.ld_unit_zero (S := S8192x64) hz2,
    View.ld_unit_zero (S := S1x64) hz2, View.ld_unit_zero (S := S64x64) hz2, View.ld_unit_zero (S := S1x8192x64) hz3]

end Cert.KernelIdeal.R0P

end
-- ==== Proof.R0Acc.lean ====
/-
  The accumulator block of the clause pass after each grid point, read at an index over the extended reals: after
  point `p` it holds the sum of the contributions of the tiles of `p`'s half up to `p` (by induction on the point: the
  first point of a half starts from the zero block, every other point adds to what the point before left).
-/
import proofs.«166183_j24507083391172_1_alg».proof.Proof.Gen.KernelIdeal.Frame
import proofs.«166183_j24507083391172_1_alg».proof.Proof.Spec
import proofs.«166183_j24507083391172_1_alg».proof.Proof.R0Pay
import proofs.«166183_j24507083391172_1_alg».proof.Proof.R0Pieces
import Idealize.ShloMosaic.Lib.ValueIdx
import Idealize.ShloMosaic.Lib.Pipeline.Value

set_option maxRecDepth 16384

noncomputable section

namespace Cert.KernelIdeal.R0A

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The contribution of grid point `k`'s tile to variable `n`, feature `d`, from the point's input blocks (zero past
    the grid). -/
def T (c : Dev nD) (k : ℕ) (n : Fin 8192) (d : Fin 64) : EReal :=
  if hk : k < cfg0.N then
    R0.blkTile (iblk0 V c 0 ⟨k, hk⟩) (iblk0 V c 1 ⟨k, hk⟩) (iblk0 V c 2 ⟨k, hk⟩) (iblk0 V c 3 ⟨k, hk⟩) (iblk0 V c 4 ⟨k, hk⟩) n d
  else 0

/-- The tile contribution at a point of the grid, unfolded. -/
theorem T_of_lt (c : Dev nD) (k : ℕ) (hk : k < cfg0.N) (n : Fin 8192) (d : Fin 64) :
    T V c k n d
      = R0.blkTile (iblk0 V c 0 ⟨k, hk⟩) (iblk0 V c 1 ⟨k, hk⟩) (iblk0 V c 2 ⟨k, hk⟩) (iblk0 V c 3 ⟨k, hk⟩) (iblk0 V c 4 ⟨k, hk⟩) n d := by
  unfold T
  rw [dif_pos hk]

/-- At the first point of a half the block holds that point's tile contribution. -/
theorem first_apply (c : Dev nD) (t : Fin cfg0.N) (h0 : t.val % 128 = 0) (n : Fin 8192) (d : Fin 64) :
    (outsAt0 V c t.val t.isLt : Vec Ideal S1x8192x64 .f32) (ix3 (0 : Fin 1) n d) = T V c t.val n d := by
  rw [outsAt0_A V c t h0, R0P.out_A]
  refine (R0.pay2_apply (iblk0 V c 0 t) (iblk0 V c 1 t) (iblk0 V c 2 t) (iblk0 V c 3 t) (iblk0 V c 4 t) _ n d).trans ?_
  rw [R0.pay1_apply, Spec.z0_eq, zero_add, T_of_lt V c t.val t.isLt]

/-- At any other point the block holds what the point before left, plus that point's tile contribution. -/
theorem next_apply (c : Dev nD) (t : Fin cfg0.N) (h0 : ¬t.val % 128 = 0) (n : Fin 8192) (d : Fin 64) :
    (outsAt0 V c t.val t.isLt : Vec Ideal S1x8192x64 .f32) (ix3 (0 : Fin 1) n d)
      = (outsAt0 V c (t.val - 1) (Nat.lt_of_le_of_lt (Nat.sub_le _ _) t.isLt) : Vec Ideal S1x8192x64 .f32) (ix3 (0 : Fin 1) n d)
        + T V c t.val n d := by
  rw [outsAt0_B V c t h0, R0P.out_B]
  refine (R0.pay2_apply (iblk0 V c 0 t) (iblk0 V c 1 t) (iblk0 V c 2 t) (iblk0 V c 3 t) (iblk0 V c 4 t) _ n d).trans ?_
  rw [T_of_lt V c t.val t.isLt]

/-- After point `p` the accumulator block holds the contributions of the tiles of `p`'s half up to `p`. -/
theorem acc_apply (c : Dev nD) : ∀ (p : ℕ) (hp : p < cfg0.N) (n : Fin 8192) (d : Fin 64),
    (outsAt0 V c p hp : Vec Ideal S1x8192x64 .f32) (ix3 (0 : Fin 1) n d)
      = ∑ j ∈ Finset.range (p % 128 + 1), T V c (p - p % 128 + j) n d
  | 0, hp, n, d => by
    rw [first_apply V c ⟨0, hp⟩ rfl n d]
    simp
  | p + 1, hp, n, d => by
    by_cases h0 : (p + 1) % 128 = 0
    · rw [first_apply V c ⟨p + 1, hp⟩ h0 n d]
      show T V c (p + 1) n d = _
      rw [h0]
      simp
    · rw [next_apply V c ⟨p + 1, hp⟩ h0 n d]
      show (outsAt0 V c p _ : Vec Ideal S1x8192x64 .f32) (ix3 (0 : Fin 1) n d) + T V c (p + 1) n d = _
      rw [acc_apply c p (Nat.lt_of_succ_lt hp) n d]
      have e1 : (p + 1) % 128 = p % 128 + 1 := by omega
      have e2 : p + 1 - (p % 128 + 1) = p - p % 128 := by omega
      have e3 : p - p % 128 + (p % 128 + 1) = p + 1 := by have := Nat.mod_le p 128; omega
      rw [e1, e2, Finset.sum_range_succ _ (p % 128 + 1), e3]

end Cert.KernelIdeal.R0A

end
-- ==== Proof.R0Arr.lean ====
/-
  The clause pass's result array at the region's exit: entry `(h, n, d)` is the sum of the contributions of the 128
  tiles of half `h` (the accumulator block of half `h` is written back once, after the half's last point, and the two
  blocks cover the array).
-/
import proofs.«166183_j24507083391172_1_alg».proof.Proof.Gen.KernelIdeal.Frame
import proofs.«166183_j24507083391172_1_alg».proof.Proof.Spec
import proofs.«166183_j24507083391172_1_alg».proof.Proof.R0Acc
import Idealize.ShloMosaic.Lib.ValueIdx
import Idealize.ShloMosaic.Lib.Pipeline.Value

set_option maxRecDepth 16384

noncomputable section

namespace Cert.KernelIdeal.R0R

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- What the result array ends holding: entry `j = (h, n, d)` is the sum over the 128 tiles of half `h`. -/
def G0 (c : Dev nD) : Vec Ideal S2x8192x64 .f32 := fun j =>
  ∑ i : Fin 128, R0A.T V c ((j 0).val * 128 + i.val) ⟨(j 1).val, (j 1).isLt⟩ ⟨(j 2).val, (j 2).isLt⟩

/-- `G0` at an index whose coordinates are known as naturals. -/
theorem G0_apply (c : Dev nD) (j : S2x8192x64.Idx) (h : ℕ) (n : Fin 8192) (d : Fin 64)
    (h0 : (j 0).val = h) (h1 : (j 1).val = n.val) (h2 : (j 2).val = d.val) :
    G0 V c j = ∑ i : Fin 128, R0A.T V c (h * 128 + i.val) n d := by
  subst h0
  obtain rfl : n = ⟨(j 1).val, (j 1).isLt⟩ := Fin.ext h1.symm
  obtain rfl : d = ⟨(j 2).val, (j 2).isLt⟩ := Fin.ext h2.symm
  rfl

/-- The accumulator block after point `p`, read at any index of the block: its leading coordinate is zero. -/
theorem acc_at (c : Dev nD) (p : ℕ) (hp : p < cfg0.N) (x : S1x8192x64.Idx) :
    (outsAt0 V c p hp : Vec Ideal S1x8192x64 .f32) x
      = ∑ j ∈ Finset.range (p % 128 + 1), R0A.T V c (p - p % 128 + j) ⟨(x 1).val, (x 1).isLt⟩ ⟨(x 2).val, (x 2).isLt⟩ := by
  have hx : x = ix3 (0 : Fin 1) (⟨(x 1).val, (x 1).isLt⟩ : Fin 8192) (⟨(x 2).val, (x 2).isLt⟩ : Fin 64) := by
    funext a
    match a with
    | ⟨0, _⟩ => exact Fin.ext (by have h : (x 0).val < 1 := (x 0).isLt; show (x 0).val = 0; omega)
    | ⟨1, _⟩ => rfl
    | ⟨2, _⟩ => rfl
  refine (congrArg (outsAt0 V c p hp : Vec Ideal S1x8192x64 .f32) hx).trans ?_
  exact R0A.acc_apply V c p hp _ _

/-- The output window's block index over the grid: the half on the leading axis, zero on the others. -/
theorem idx5 : ∀ t : Fin cfg0.N, win0_5.index t (0 : Fin 3) = t.val / 128 ∧ win0_5.index t (1 : Fin 3) = 0
    ∧ win0_5.index t (2 : Fin 3) = 0 :=
  (by decide +kernel : ∀ t : Fin grid0.N, _)

/-- What a writing-back point writes is its block of `G0`. -/
theorem flushed_eq (c : Dev nD) (t : Fin cfg0.N) (hf : (cfg0.win 5).flush t = true) :
    (dat0 V c).flushed 5 t = ((cfg0.win 5).blk t).view.read (Elt Ideal) (G0 V c) := by
  have hN : t.val < 256 := lt_of_lt_of_eq t.isLt (show cfg0.N = 256 from N_0)
  have h127 : t.val % 128 = 127 := (flush0_5 t).mp hf
  obtain ⟨e0, e1, e2⟩ := idx5 t
  show (cfg0.win 5).cut (grid0.coords t) ((dat0 V c).after 5 t) = _
  rw [after0_5]
  funext y
  have hy1 : (y 1).val < 8192 := (y 1).isLt
  have hy2 : (y 2).val < 64 := (y 2).isLt
  have hy0 : (y 0).val < 1 := (y 0).isLt
  show (outsAt0 V c t.val t.isLt : Vec Ideal S1x8192x64 .f32) ((cfg0.win 5).xinj (grid0.coords t) y)
    = G0 V c (((cfg0.win 5).blk t).view.emb y)
  refine (acc_at V c t.val t.isLt _).trans ?_
  refine Eq.trans ?_ (G0_apply V c (((cfg0.win 5).blk t).view.emb y) (t.val / 128) ⟨(y 1).val, hy1⟩ ⟨(y 2).val, hy2⟩ ?_ ?_ ?_).symm
  · rw [h127, show t.val - 127 = t.val / 128 * 128 from by omega, Finset.sum_range]
  · show win0_5.index t (0 : Fin 3) * 1 + 1 * (y 0).val = _
    rw [e0]; omega
  · show win0_5.index t (1 : Fin 3) * 8192 + 1 * (y 1).val = (y 1).val
    rw [e1]; omega
  · show win0_5.index t (2 : Fin 3) * 64 + 1 * (y 2).val = (y 2).val
    rw [e2]; omega

/-- An index of the array is in point `t`'s block iff each coordinate is in the block's range on its axis. -/
theorem mem_blk (t : Fin cfg0.N) (i : S2x8192x64.Idx) :
    i ∈ ((cfg0.win 5).blk t).view.set ↔ ∀ a : Fin 3, win0_5.index t a * S1x8192x64.size a ≤ (i a).val
      ∧ (i a).val < win0_5.index t a * S1x8192x64.size a + S1x8192x64.size a := by
  show i ∈ ((View.whole main_v9).slice (win0_5.rect t)).set ↔ _
  rw [View.set_slice_whole, Rect.mem_set_unit]
  exact Iff.rfl

/-- Every index of the array lies in the block written back after the last point of its half. -/
theorem cover (i : S2x8192x64.Idx) :
    ∃ t : Fin cfg0.N, (cfg0.win 5).flush t = true ∧ i ∈ ((cfg0.win 5).blk t).view.set := by
  have hi0 : (i 0).val < 2 := (i 0).isLt
  have hi1 : (i 1).val < 8192 := (i 1).isLt
  have hi2 : (i 2).val < 64 := (i 2).isLt
  have hlt : (i 0).val * 128 + 127 < cfg0.N := by rw [show cfg0.N = 256 from N_0]; omega
  refine ⟨⟨(i 0).val * 128 + 127, hlt⟩, (flush0_5 _).mpr (by show ((i 0).val * 128 + 127) % 128 = 127; omega), ?_⟩
  obtain ⟨e0, e1, e2⟩ := idx5 ⟨(i 0).val * 128 + 127, hlt⟩
  have e0' : win0_5.index ⟨(i 0).val * 128 + 127, hlt⟩ (0 : Fin 3) = (i 0).val := by
    rw [e0]; show ((i 0).val * 128 + 127) / 128 = (i 0).val; omega
  rw [mem_blk]
  intro a
  match a with
  | ⟨0, _⟩ =>
    show win0_5.index ⟨(i 0).val * 128 + 127, hlt⟩ (0 : Fin 3) * 1 ≤ (i 0).val
      ∧ (i 0).val < win0_5.index ⟨(i 0).val * 128 + 127, hlt⟩ (0 : Fin 3) * 1 + 1
    rw [e0']; omega
  | ⟨1, _⟩ =>
    show win0_5.index ⟨(i 0).val * 128 + 127, hlt⟩ (1 : Fin 3) * 8192 ≤ (i 1).val
      ∧ (i 1).val < win0_5.index ⟨(i 0).val * 128 + 127, hlt⟩ (1 : Fin 3) * 8192 + 8192
    rw [e1]; omega
  | ⟨2, _⟩ =>
    show win0_5.index ⟨(i 0).val * 128 + 127, hlt⟩ (2 : Fin 3) * 64 ≤ (i 2).val
      ∧ (i 2).val < win0_5.index ⟨(i 0).val * 128 + 127, hlt⟩ (2 : Fin 3) * 64 + 64
    rw [e2]; omega

/-- The result array after the region is `G0`. -/
theorem final (c : Dev nD) : (dat0 V c).arrAt 5 cfg0.N = G0 V c :=
  (dat0 V c).arrAt_eq_of_cover 5 (G0 V c) (flushed_eq V c) cover

/-- Entry `(h, n, d)` of the result array after the region: the contributions of half `h`'s tiles, summed. -/
theorem arr_apply (c : Dev nD) (h : Fin 2) (n : Fin 8192) (d : Fin 64) :
    ((dat0 V c).arrAt 5 cfg0.N : Vec Ideal S2x8192x64 .f32) (ix3 h n d)
      = ∑ i : Fin 128, R0A.T V c (h.val * 128 + i.val) n d := by
  rw [final V c]
  rfl

end Cert.KernelIdeal.R0R

end
-- ==== Proof.R1Pay.lean ====
/-
  The update body's stored value read at an index, over the extended reals: row `p` of the output block is the
  specification's update of row `p` of the input blocks.
-/
import proofs.«166183_j24507083391172_1_alg».proof.Proof.Gen.KernelIdeal.Skeleton
import proofs.«166183_j24507083391172_1_alg».proof.Proof.Spec
import proofs.«166183_j24507083391172_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R1

open Cert.KernelIdeal Cert.KernelIdeal.Gen Idealize.ShloMosaic Idealize.ShloMosaic.ValueIdx

/-- The left piece of the combiner's input row. -/
private theorem concat_apply_lt (x1 : FVec Ideal S1024x8 .f32) (y : FVec Ideal S1024x64 .f32) (p : Fin 1024) (j : Fin 72)
    (h : j.val < 8) :
    concatenate S1024x72 1 [⟨S1024x8, x1⟩, ⟨S1024x64, y⟩] concatenates_S1024x8_S1024x64_S1024x72_d1 (ix2 p j)
      = x1 (ix2 p ⟨j.val, h⟩) := by
  refine concatenate_pair_apply_left (1 : Fin 2) x1 y concatenates_S1024x8_S1024x64_S1024x72_d1 (ix2 p j) rfl
    (ix2 p ⟨j.val, h⟩) fun b => ?_
  match b with
  | ⟨0, _⟩ => rfl
  | ⟨1, _⟩ => rfl

/-- The right piece of the combiner's input row. -/
private theorem concat_apply_ge (x1 : FVec Ideal S1024x8 .f32) (y : FVec Ideal S1024x64 .f32) (p : Fin 1024) (j : Fin 72)
    (h : ¬ j.val < 8) :
    concatenate S1024x72 1 [⟨S1024x8, x1⟩, ⟨S1024x64, y⟩] concatenates_S1024x8_S1024x64_S1024x72_d1 (ix2 p j)
      = y (ix2 p ⟨j.val - 8, by have := j.isLt; omega⟩) := by
  refine concatenate_pair_apply_right (1 : Fin 2) x1 y concatenates_S1024x8_S1024x64_S1024x72_d1 (ix2 p j) rfl rfl
    (ix2 p ⟨j.val - 8, by have := j.isLt; omega⟩) (fun b hb => ?_) ?_
  · match b with
    | ⟨0, _⟩ => rfl
    | ⟨1, _⟩ => exact absurd rfl hb
  · show (j.val - 8) + 8 = j.val
    omega

/-- The rectified message plus bias, read at row `p`, lane `m`. -/
private theorem relu_apply (x0 : FVec Ideal S1024x64 .f32) (x3 : FVec Ideal S1x64 .f32) (p : Fin 1024) (m : Fin 64) :
    maximumf (addf (shapeCast S1024x64 x0 shapeCasts_S1024x64_S1024x64)
        (broadcastTo S1024x64 (shapeCast S1x64 x3 shapeCasts_S1x64_S1x64) broadcasts_S1x64_S1024x64))
        (broadcast S1024x64 (Scalar.ofBits (F := Ideal) .f32 0x00000000#32)) (ix2 p m)
      = max (x0 (ix2 p m) + x3 (ix2 (0 : Fin 1) m)) Spec.z0 := by
  rw [maximumf_apply, addf_apply, shapeCast_self, Cert.RowOps.rowParam_spread_apply]
  rfl

/-- The combined embedding of row `p`. -/
theorem pay2_apply (x0 : FVec Ideal S1024x64 .f32) (x3 : FVec Ideal S1x64 .f32) (x1 : FVec Ideal S1024x8 .f32)
    (x4 : FVec Ideal S72x64 .f32) (x5 : FVec Ideal S1x64 .f32) (p : Fin 1024) (k : Fin 64) :
    k1_pay2 (F := Ideal) x0 x3 x1 x4 x5 (ix2 p k)
      = Spec.emb (fun k => x0 (ix2 p k)) (fun k => x1 (ix2 p k)) (fun k => x3 (ix2 (0 : Fin 1) k))
          (fun k => x5 (ix2 (0 : Fin 1) k)) (fun j k => x4 (ix2 j k)) k := by
  unfold k1_pay2 Spec.emb
  refine congrArg Ideal.tanh ?_
  refine congrArg₂ (· + ·) ?_ (Cert.RowOps.rowParam_spread_apply x5 shapeCasts_S1x64_S1x64 broadcasts_S1x64_S1024x64 p k)
  refine (Cert.RowOps.matmul_apply dot_S1024x72_S72x64_S1024x64_1_0_0_1_n_n.wf (some .fp32) _ _ p k).trans ?_
  refine Finset.sum_congr rfl fun j _ => ?_
  refine congrArg₂ (· * ·) ?_ (congrFun (shapeCast_self x4 shapeCasts_S72x64_S72x64) (ix2 j k))
  unfold Spec.cat
  by_cases h : j.val < 8
  · rw [dif_pos h]
    exact concat_apply_lt x1 _ p j h
  · rw [dif_neg h]
    exact (concat_apply_ge x1 _ p j h).trans (relu_apply x0 x3 p _)

/-- The previous embedding's block is passed on unchanged. -/
theorem pay3_apply (x2 : FVec Ideal S1024x64 .f32) (p : Fin 1024) (k : Fin 64) :
    k1_pay3 (F := Ideal) x2 (ix2 p k) = x2 (ix2 p k) := by
  unfold k1_pay3
  rw [shapeCast_self]

/-- A gate before its nonlinearity: two products into zero accumulators, added, plus a one-row bias spread over the
    rows; at row `p`, feature `d`. -/
private theorem gate_pre_apply (a b : FVec Ideal S1024x64 .f32) (W U : FVec Ideal S64x64 .f32) (c : FVec Ideal S1x64 .f32)
    (p : Fin 1024) (d : Fin 64) :
    addf (addf
        (matmul dot_S1024x64_S64x64_S1024x64_1_0_0_1_n_n (some .fp32) a (shapeCast S64x64 W shapeCasts_S64x64_S64x64)
          (constant S1024x64 .f32 0x00000000#32))
        (matmul dot_S1024x64_S64x64_S1024x64_1_0_0_1_n_n (some .fp32) b (shapeCast S64x64 U shapeCasts_S64x64_S64x64)
          (constant S1024x64 .f32 0x00000000#32)))
        (broadcastTo S1024x64 (shapeCast S1x64 c shapeCasts_S1x64_S1x64) broadcasts_S1x64_S1024x64) (ix2 p d)
      = ((∑ k : Fin 64, a (ix2 p k) * W (ix2 k d)) + (∑ k : Fin 64, b (ix2 p k) * U (ix2 k d))) + c (ix2 (0 : Fin 1) d) := by
  rw [addf_apply, addf_apply, Cert.RowOps.rowParam_spread_apply, shapeCast_self, shapeCast_self]
  refine congrArg₂ (· + ·) (congrArg₂ (· + ·) ?_ ?_) rfl
  · exact Cert.RowOps.matmul_apply dot_S1024x64_S64x64_S1024x64_1_0_0_1_n_n.wf (some .fp32) a W p d
  · exact Cert.RowOps.matmul_apply dot_S1024x64_S64x64_S1024x64_1_0_0_1_n_n.wf (some .fp32) b U p d

/-- The update gate of row `p`. -/
theorem pay4_apply (x0 : FVec Ideal S1024x64 .f32) (x3 : FVec Ideal S1x64 .f32) (x1 : FVec Ideal S1024x8 .f32)
    (x4 : FVec Ideal S72x64 .f32) (x5 : FVec Ideal S1x64 .f32) (x2 : FVec Ideal S1024x64 .f32)
    (x6 x7 : FVec Ideal S64x64 .f32) (x8 : FVec Ideal S1x64 .f32) (p : Fin 1024) (d : Fin 64) :
    k1_pay4 (F := Ideal) x0 x3 x1 x4 x5 x2 x6 x7 x8 (ix2 p d)
      = Spec.zg (fun k => x0 (ix2 p k)) (fun k => x1 (ix2 p k)) (fun k => x2 (ix2 p k))
          (fun k => x3 (ix2 (0 : Fin 1) k)) (fun k => x5 (ix2 (0 : Fin 1) k)) (fun k => x8 (ix2 (0 : Fin 1) k))
          (fun j k => x4 (ix2 j k)) (fun k e => x6 (ix2 k e)) (fun k e => x7 (ix2 k e)) d := by
  unfold k1_pay4 Spec.zg
  refine congrArg Ideal.logistic ?_
  refine (gate_pre_apply (k1_pay2 x0 x3 x1 x4 x5) (k1_pay3 x2) x6 x7 x8 p d).trans ?_
  refine congrArg₂ (· + ·) (congrArg₂ (· + ·) (Finset.sum_congr rfl fun k _ => ?_) (Finset.sum_congr rfl fun k _ => ?_)) rfl
  · rw [pay2_apply]
  · rw [pay3_apply]

/-- Row `p`, feature `d` of what the body stores, from the blocks it loads: the message block `x0`, the ground
    features `x1`, the previous embedding `x2`, and the parameters (biases as one-row blocks, matrices transposed). -/
theorem pay1_apply (x0 : Vec Ideal S1024x64 .f32) (x1 : Vec Ideal S1024x8 .f32) (x2 : Vec Ideal S1024x64 .f32)
    (x3 : Vec Ideal S1x64 .f32) (x4 : Vec Ideal S72x64 .f32) (x5 : Vec Ideal S1x64 .f32)
    (x6 x7 : Vec Ideal S64x64 .f32) (x8 : Vec Ideal S1x64 .f32) (x9 x10 : Vec Ideal S64x64 .f32)
    (x11 : Vec Ideal S1x64 .f32) (x12 x13 : Vec Ideal S64x64 .f32) (x14 : Vec Ideal S1x64 .f32)
    (p : Fin 1024) (d : Fin 64) :
    k1_pay1 (F := Ideal) (k1_pay2 x0 x3 x1 x4 x5) (k1_pay3 x2) (k1_pay4 x0 x3 x1 x4 x5 x2 x6 x7 x8) (k1_pay5 x9)
        (constant S1024x64 .f32 0x00000000#32) x10 x11 x12 x13 x14 (ix2 p d)
      = Spec.out (fun k => x0 (ix2 p k)) (fun k => x1 (ix2 p k)) (fun k => x2 (ix2 p k))
          (fun k => x3 (ix2 (0 : Fin 1) k)) (fun k => x5 (ix2 (0 : Fin 1) k)) (fun k => x8 (ix2 (0 : Fin 1) k))
          (fun k => x11 (ix2 (0 : Fin 1) k)) (fun k => x14 (ix2 (0 : Fin 1) k))
          (fun j k => x4 (ix2 j k)) (fun k e => x6 (ix2 k e)) (fun k e => x7 (ix2 k e)) (fun k e => x9 (ix2 k e))
          (fun k e => x10 (ix2 k e)) (fun k e => x12 (ix2 k e)) (fun k e => x13 (ix2 k e)) d := by
  unfold k1_pay1 Spec.out
  refine congrArg₂ (· + ·)
    (congrArg₂ (· * ·) (congrArg₂ (· - ·) rfl (pay4_apply x0 x3 x1 x4 x5 x2 x6 x7 x8 p d)) (pay3_apply x2 p d))
    (congrArg₂ (· * ·) (pay4_apply x0 x3 x1 x4 x5 x2 x6 x7 x8 p d) ?_)
  unfold Spec.hg
  refine congrArg Ideal.tanh ?_
  refine (gate_pre_apply (k1_pay2 x0 x3 x1 x4 x5) _ x12 x13 x14 p d).trans ?_
  refine congrArg₂ (· + ·) (congrArg₂ (· + ·) (Finset.sum_congr rfl fun k _ => ?_) (Finset.sum_congr rfl fun k _ => ?_)) rfl
  · rw [pay2_apply]
  · refine congrArg (· * x13 (ix2 k d)) ?_
    rw [mulf_apply, pay3_apply]
    refine congrArg (· * x2 (ix2 p k)) ?_
    unfold Spec.rg
    refine congrArg Ideal.logistic ?_
    refine (gate_pre_apply (k1_pay2 x0 x3 x1 x4 x5) (k1_pay3 x2) x9 x10 x11 p k).trans ?_
    refine congrArg₂ (· + ·) (congrArg₂ (· + ·) (Finset.sum_congr rfl fun e _ => ?_) (Finset.sum_congr rfl fun e _ => ?_)) rfl
    · rw [pay2_apply]
    · rw [pay3_apply]

end Cert.KernelIdeal.R1

end
-- ==== Proof.R1Val.lean ====
/-
  The second region's result array: row `n` of what the update region writes is the specification's update of row `n`
  of the arrays the region finds (every grid point writes back its block of 1024 rows, and the eight blocks cover
  the array).
-/
import proofs.«166183_j24507083391172_1_alg».proof.Proof.Gen.KernelIdeal.Frame
import proofs.«166183_j24507083391172_1_alg».proof.Proof.Spec
import proofs.«166183_j24507083391172_1_alg».proof.Proof.R1Pay
import Idealize.ShloMosaic.Lib.ValueIdx
import Idealize.ShloMosaic.Lib.Pipeline.Value

set_option maxRecDepth 16384

noncomputable section

namespace Cert.KernelIdeal.R1V

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The moving windows' block index is the point on the row axis and zero on the feature axis. -/
theorem idx_moving : ∀ t : Fin cfg1.N,
    (win1_15.index t (0 : Fin 2) = t.val ∧ win1_15.index t (1 : Fin 2) = 0)
    ∧ (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0) :=
  (by decide +kernel : ∀ t : Fin grid1.N, _)

/-- The parameter windows' block index is zero on both axes at every point. -/
theorem idx_param : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0) :=
  (by decide +kernel : ∀ t : Fin grid1.N, _)

theorem mem_blk15 (t : Fin cfg1.N) (i : S8192x64.Idx) :
    i ∈ ((cfg1.win 15).blk t).view.set ↔ ∀ a : Fin 2, win1_15.index t a * S1024x64.size a ≤ (i a).val ∧ (i a).val < win1_15.index t a * S1024x64.size a + S1024x64.size a := by
  show i ∈ ((View.whole main_v23).slice (win1_15.rect t)).set ↔ _
  rw [View.set_slice_whole, Rect.mem_set_unit]
  exact Iff.rfl

theorem lt8 (t : Fin cfg1.N) : t.val < 8 := lt_of_lt_of_eq t.isLt N_1

/-- Row `p` of point `t`'s block is row `1024 t + p` of the array. -/
def rowAt (t : Fin cfg1.N) (p : Fin 1024) : Fin 8192 := ⟨t.val * 1024 + p.val, by have := lt8 t; have := p.isLt; omega⟩

/-- The update of row `n`, feature `d`, of the arrays the region finds. -/
def rowOut (c : Dev nD) (n : Fin 8192) (d : Fin 64) : EReal :=
  Spec.out (fun k => (V3 (F := Ideal) m ρ c main_v10 : Vec Ideal S8192x64 .f32) (ix2 n k))
          (fun k => (V3 (F := Ideal) m ρ c main_arg1 : Vec Ideal S8192x8 .f32) (ix2 n k))
          (fun k => (V3 (F := Ideal) m ρ c main_v0 : Vec Ideal S8192x64 .f32) (ix2 n k))
          (fun k => (V3 (F := Ideal) m ρ c main_v11 : Vec Ideal S1x64 .f32) (ix2 (0 : Fin 1) k))
          (fun k => (V3 (F := Ideal) m ρ c main_v12 : Vec Ideal S1x64 .f32) (ix2 (0 : Fin 1) k))
          (fun k => (V3 (F := Ideal) m ρ c main_v13 : Vec Ideal S1x64 .f32) (ix2 (0 : Fin 1) k))
          (fun k => (V3 (F := Ideal) m ρ c main_v14 : Vec Ideal S1x64 .f32) (ix2 (0 : Fin 1) k))
          (fun k => (V3 (F := Ideal) m ρ c main_v15 : Vec Ideal S1x64 .f32) (ix2 (0 : Fin 1) k))
          (fun j k => (V3 (F := Ideal) m ρ c main_v16 : Vec Ideal S72x64 .f32) (ix2 j k))
          (fun k e => (V3 (F := Ideal) m ρ c main_v17 : Vec Ideal S64x64 .f32) (ix2 k e))
          (fun k e => (V3 (F := Ideal) m ρ c main_v18 : Vec Ideal S64x64 .f32) (ix2 k e))
          (fun k e => (V3 (F := Ideal) m ρ c main_v19 : Vec Ideal S64x64 .f32) (ix2 k e))
          (fun k e => (V3 (F := Ideal) m ρ c main_v20 : Vec Ideal S64x64 .f32) (ix2 k e))
          (fun k e => (V3 (F := Ideal) m ρ c main_v21 : Vec Ideal S64x64 .f32) (ix2 k e))
          (fun k e => (V3 (F := Ideal) m ρ c main_v22 : Vec Ideal S64x64 .f32) (ix2 k e)) d

/-- The result array, index by index. -/
def G (c : Dev nD) : Vec Ideal S8192x64 .f32 := fun j => rowOut m ρ c (j 0) (j 1)

/-- Window 0 moves with the point: row `p` of its block is row `1024 t + p` of its array. -/
theorem blk0_apply (c : Dev nD) (t : Fin cfg1.N) (p : Fin 1024) (k : Fin 64) :
    (iblk1 (V3 (F := Ideal) m ρ) c 0 t : Vec Ideal S1024x64 .f32) (ix2 p k)
      = (V3 (F := Ideal) m ρ c main_v10 : Vec Ideal S8192x64 .f32) (ix2 (rowAt t p) k) := by
  obtain ⟨-, ⟨e0, e1⟩, -, -⟩ := idx_moving t
  show (V3 (F := Ideal) m ρ c main_v10 : Vec Ideal S8192x64 .f32) (((cfg1.win 0).blk t).view.emb (ix2 p k)) = _
  refine congrArg _ ?_
  funext a; apply Fin.ext
  match a with
  | ⟨0, _⟩ => show win1_0.index t (0 : Fin 2) * 1024 + 1 * p.val = t.val * 1024 + p.val; omega
  | ⟨1, _⟩ => show win1_0.index t (1 : Fin 2) * 64 + 1 * k.val = k.val; omega

/-- Window 1 moves with the point: row `p` of its block is row `1024 t + p` of its array. -/
theorem blk1_apply (c : Dev nD) (t : Fin cfg1.N) (p : Fin 1024) (k : Fin 8) :
    (iblk1 (V3 (F := Ideal) m ρ) c 1 t : Vec Ideal S1024x8 .f32) (ix2 p k)
      = (V3 (F := Ideal) m ρ c main_arg1 : Vec Ideal S8192x8 .f32) (ix2 (rowAt t p) k) := by
  obtain ⟨-, -, ⟨e0, e1⟩, -⟩ := idx_moving t
  show (V3 (F := Ideal) m ρ c main_arg1 : Vec Ideal S8192x8 .f32) (((cfg1.win 1).blk t).view.emb (ix2 p k)) = _
  refine congrArg _ ?_
  funext a; apply Fin.ext
  match a with
  | ⟨0, _⟩ => show win1_1.index t (0 : Fin 2) * 1024 + 1 * p.val = t.val * 1024 + p.val; omega
  | ⟨1, _⟩ => show win1_1.index t (1 : Fin 2) * 8 + 1 * k.val = k.val; omega

/-- Window 2 moves with the point: row `p` of its block is row `1024 t + p` of its array. -/
theorem blk2_apply (c : Dev nD) (t : Fin cfg1.N) (p : Fin 1024) (k : Fin 64) :
    (iblk1 (V3 (F := Ideal) m ρ) c 2 t : Vec Ideal S1024x64 .f32) (ix2 p k)
      = (V3 (F := Ideal) m ρ c main_v0 : Vec Ideal S8192x64 .f32) (ix2 (rowAt t p) k) := by
  obtain ⟨-, -, -, e0, e1⟩ := idx_moving t
  show (V3 (F := Ideal) m ρ c main_v0 : Vec Ideal S8192x64 .f32) (((cfg1.win 2).blk t).view.emb (ix2 p k)) = _
  refine congrArg _ ?_
  funext a; apply Fin.ext
  match a with
  | ⟨0, _⟩ => show win1_2.index t (0 : Fin 2) * 1024 + 1 * p.val = t.val * 1024 + p.val; omega
  | ⟨1, _⟩ => show win1_2.index t (1 : Fin 2) * 64 + 1 * k.val = k.val; omega

/-- Window 3 is its whole array at every point. -/
theorem blk3_apply (c : Dev nD) (t : Fin cfg1.N) (j : Fin 1) (k : Fin 64) :
    (iblk1 (V3 (F := Ideal) m ρ) c 3 t : Vec Ideal S1x64 .f32) (ix2 j k)
      = (V3 (F := Ideal) m ρ c main_v11 : Vec Ideal S1x64 .f32) (ix2 j k) := by
  obtain ⟨⟨e0, e1⟩, -, -, -, -, -, -, -, -, -, -, -⟩ := idx_param t
  show (V3 (F := Ideal) m ρ c main_v11 : Vec Ideal S1x64 .f32) (((cfg1.win 3).blk t).view.emb (ix2 j k)) = _
  refine congrArg _ ?_
  funext a; apply Fin.ext
  match a with
  | ⟨0, _⟩ => show win1_3.index t (0 : Fin 2) * 1 + 1 * j.val = j.val; omega
  | ⟨1, _⟩ => show win1_3.index t (1 : Fin 2) * 64 + 1 * k.val = k.val; omega

/-- Window 4 is its whole array at every point. -/
theorem blk4_apply (c : Dev nD) (t : Fin cfg1.N) (j : Fin 72) (k : Fin 64) :
    (iblk1 (V3 (F := Ideal) m ρ) c 4 t : Vec Ideal S72x64 .f32) (ix2 j k)
      = (V3 (F := Ideal) m ρ c main_v16 : Vec Ideal S72x64 .f32) (ix2 j k) := by
  obtain ⟨-, ⟨e0, e1⟩, -, -, -, -, -, -, -, -, -, -⟩ := idx_param t
  show (V3 (F := Ideal) m ρ c main_v16 : Vec Ideal S72x64 .f32) (((cfg1.win 4).blk t).view.emb (ix2 j k)) = _
  refine congrArg _ ?_
  funext a; apply Fin.ext
  match a with
  | ⟨0, _⟩ => show win1_4.index t (0 : Fin 2) * 72 + 1 * j.val = j.val; omega
  | ⟨1, _⟩ => show win1_4.index t (1 : Fin 2) * 64 + 1 * k.val = k.val; omega

/-- Window 5 is its whole array at every point. -/
theorem blk5_apply (c : Dev nD) (t : Fin cfg1.N) (j : Fin 1) (k : Fin 64) :
    (iblk1 (V3 (F := Ideal) m ρ) c 5 t : Vec Ideal S1x64 .f32) (ix2 j k)
      = (V3 (F := Ideal) m ρ c main_v12 : Vec Ideal S1x64 .f32) (ix2 j k) := by
  obtain ⟨-, -, ⟨e0, e1⟩, -, -, -, -, -, -, -, -, -⟩ := idx_param t
  show (V3 (F := Ideal) m ρ c main_v12 : Vec Ideal S1x64 .f32) (((cfg1.win 5).blk t).view.emb (ix2 j k)) = _
  refine congrArg _ ?_
  funext a; apply Fin.ext
  match a with
  | ⟨0, _⟩ => show win1_5.index t (0 : Fin 2) * 1 + 1 * j.val = j.val; omega
  | ⟨1, _⟩ => show win1_5.index t (1 : Fin 2) * 64 + 1 * k.val = k.val; omega

/-- Window 6 is its whole array at every point. -/
theorem blk6_apply (c : Dev nD) (t : Fin cfg1.N) (j : Fin 64) (k : Fin 64) :
    (iblk1 (V3 (F := Ideal) m ρ) c 6 t : Vec Ideal S64x64 .f32) (ix2 j k)
      = (V3 (F := Ideal) m ρ c main_v17 : Vec Ideal S64x64 .f32) (ix2 j k) := by
  obtain ⟨-, -, -, ⟨e0, e1⟩, -, -, -, -, -, -, -, -⟩ := idx_param t
  show (V3 (F := Ideal) m ρ c main_v17 : Vec Ideal S64x64 .f32) (((cfg1.win 6).blk t).view.emb (ix2 j k)) = _
  refine congrArg _ ?_
  funext a; apply Fin.ext
  match a with
  | ⟨0, _⟩ => show win1_6.index t (0 : Fin 2) * 64 + 1 * j.val = j.val; omega
  | ⟨1, _⟩ => show win1_6.index t (1 : Fin 2) * 64 + 1 * k.val = k.val; omega

/-- Window 7 is its whole array at every point. -/
theorem blk7_apply (c : Dev nD) (t : Fin cfg1.N) (j : Fin 64) (k : Fin 64) :
    (iblk1 (V3 (F := Ideal) m ρ) c 7 t : Vec Ideal S64x64 .f32) (ix2 j k)
      = (V3 (F := Ideal) m ρ c main_v18 : Vec Ideal S64x64 .f32) (ix2 j k) := by
  obtain ⟨-, -, -, -, ⟨e0, e1⟩, -, -, -, -, -, -, -⟩ := idx_param t
  show (V3 (F := Ideal) m ρ c main_v18 : Vec Ideal S64x64 .f32) (((cfg1.win 7).blk t).view.emb (ix2 j k)) = _
  refine congrArg _ ?_
  funext a; apply Fin.ext
  match a with
  | ⟨0, _⟩ => show win1_7.index t (0 : Fin 2) * 64 + 1 * j.val = j.val; omega
  | ⟨1, _⟩ => show win1_7.index t (1 : Fin 2) * 64 + 1 * k.val = k.val; omega

/-- Window 8 is its whole array at every point. -/
theorem blk8_apply (c : Dev nD) (t : Fin cfg1.N) (j : Fin 1) (k : Fin 64) :
    (iblk1 (V3 (F := Ideal) m ρ) c 8 t : Vec Ideal S1x64 .f32) (ix2 j k)
      = (V3 (F := Ideal) m ρ c main_v13 : Vec Ideal S1x64 .f32) (ix2 j k) := by
  obtain ⟨-, -, -, -, -, ⟨e0, e1⟩, -, -, -, -, -, -⟩ := idx_param t
  show (V3 (F := Ideal) m ρ c main_v13 : Vec Ideal S1x64 .f32) (((cfg1.win 8).blk t).view.emb (ix2 j k)) = _
  refine congrArg _ ?_
  funext a; apply Fin.ext
  match a with
  | ⟨0, _⟩ => show win1_8.index t (0 : Fin 2) * 1 + 1 * j.val = j.val; omega
  | ⟨1, _⟩ => show win1_8.index t (1 : Fin 2) * 64 + 1 * k.val = k.val; omega

/-- Window 9 is its whole array at every point. -/
theorem blk9_apply (c : Dev nD) (t : Fin cfg1.N) (j : Fin 64) (k : Fin 64) :
    (iblk1 (V3 (F := Ideal) m ρ) c 9 t : Vec Ideal S64x64 .f32) (ix2 j k)
      = (V3 (F := Ideal) m ρ c main_v19 : Vec Ideal S64x64 .f32) (ix2 j k) := by
  obtain ⟨-, -, -, -, -, -, ⟨e0, e1⟩, -, -, -, -, -⟩ := idx_param t
  show (V3 (F := Ideal) m ρ c main_v19 : Vec Ideal S64x64 .f32) (((cfg1.win 9).blk t).view.emb (ix2 j k)) = _
  refine congrArg _ ?_
  funext a; apply Fin.ext
  match a with
  | ⟨0, _⟩ => show win1_9.index t (0 : Fin 2) * 64 + 1 * j.val = j.val; omega
  | ⟨1, _⟩ => show win1_9.index t (1 : Fin 2) * 64 + 1 * k.val = k.val; omega

/-- Window 10 is its whole array at every point. -/
theorem blk10_apply (c : Dev nD) (t : Fin cfg1.N) (j : Fin 64) (k : Fin 64) :
    (iblk1 (V3 (F := Ideal) m ρ) c 10 t : Vec Ideal S64x64 .f32) (ix2 j k)
      = (V3 (F := Ideal) m ρ c main_v20 : Vec Ideal S64x64 .f32) (ix2 j k) := by
  obtain ⟨-, -, -, -, -, -, -, ⟨e0, e1⟩, -, -, -, -⟩ := idx_param t
  show (V3 (F := Ideal) m ρ c main_v20 : Vec Ideal S64x64 .f32) (((cfg1.win 10).blk t).view.emb (ix2 j k)) = _
  refine congrArg _ ?_
  funext a; apply Fin.ext
  match a with
  | ⟨0, _⟩ => show win1_10.index t (0 : Fin 2) * 64 + 1 * j.val = j.val; omega
  | ⟨1, _⟩ => show win1_10.index t (1 : Fin 2) * 64 + 1 * k.val = k.val; omega

/-- Window 11 is its whole array at every point. -/
theorem blk11_apply (c : Dev nD) (t : Fin cfg1.N) (j : Fin 1) (k : Fin 64) :
    (iblk1 (V3 (F := Ideal) m ρ) c 11 t : Vec Ideal S1x64 .f32) (ix2 j k)
      = (V3 (F := Ideal) m ρ c main_v14 : Vec Ideal S1x64 .f32) (ix2 j k) := by
  obtain ⟨-, -, -, -, -, -, -, -, ⟨e0, e1⟩, -, -, -⟩ := idx_param t
  show (V3 (F := Ideal) m ρ c main_v14 : Vec Ideal S1x64 .f32) (((cfg1.win 11).blk t).view.emb (ix2 j k)) = _
  refine congrArg _ ?_
  funext a; apply Fin.ext
  match a with
  | ⟨0, _⟩ => show win1_11.index t (0 : Fin 2) * 1 + 1 * j.val = j.val; omega
  | ⟨1, _⟩ => show win1_11.index t (1 : Fin 2) * 64 + 1 * k.val = k.val; omega

/-- Window 12 is its whole array at every point. -/
theorem blk12_apply (c : Dev nD) (t : Fin cfg1.N) (j : Fin 64) (k : Fin 64) :
    (iblk1 (V3 (F := Ideal) m ρ) c 12 t : Vec Ideal S64x64 .f32) (ix2 j k)
      = (V3 (F := Ideal) m ρ c main_v21 : Vec Ideal S64x64 .f32) (ix2 j k) := by
  obtain ⟨-, -, -, -, -, -, -, -, -, ⟨e0, e1⟩, -, -⟩ := idx_param t
  show (V3 (F := Ideal) m ρ c main_v21 : Vec Ideal S64x64 .f32) (((cfg1.win 12).blk t).view.emb (ix2 j k)) = _
  refine congrArg _ ?_
  funext a; apply Fin.ext
  match a with
  | ⟨0, _⟩ => show win1_12.index t (0 : Fin 2) * 64 + 1 * j.val = j.val; omega
  | ⟨1, _⟩ => show win1_12.index t (1 : Fin 2) * 64 + 1 * k.val = k.val; omega

/-- Window 13 is its whole array at every point. -/
theorem blk13_apply (c : Dev nD) (t : Fin cfg1.N) (j : Fin 64) (k : Fin 64) :
    (iblk1 (V3 (F := Ideal) m ρ) c 13 t : Vec Ideal S64x64 .f32) (ix2 j k)
      = (V3 (F := Ideal) m ρ c main_v22 : Vec Ideal S64x64 .f32) (ix2 j k) := by
  obtain ⟨-, -, -, -, -, -, -, -, -, -, ⟨e0, e1⟩, -⟩ := idx_param t
  show (V3 (F := Ideal) m ρ c main_v22 : Vec Ideal S64x64 .f32) (((cfg1.win 13).blk t).view.emb (ix2 j k)) = _
  refine congrArg _ ?_
  funext a; apply Fin.ext
  match a with
  | ⟨0, _⟩ => show win1_13.index t (0 : Fin 2) * 64 + 1 * j.val = j.val; omega
  | ⟨1, _⟩ => show win1_13.index t (1 : Fin 2) * 64 + 1 * k.val = k.val; omega

/-- Window 14 is its whole array at every point. -/
theorem blk14_apply (c : Dev nD) (t : Fin cfg1.N) (j : Fin 1) (k : Fin 64) :
    (iblk1 (V3 (F := Ideal) m ρ) c 14 t : Vec Ideal S1x64 .f32) (ix2 j k)
      = (V3 (F := Ideal) m ρ c main_v15 : Vec Ideal S1x64 .f32) (ix2 j k) := by
  obtain ⟨-, -, -, -, -, -, -, -, -, -, -, e0, e1⟩ := idx_param t
  show (V3 (F := Ideal) m ρ c main_v15 : Vec Ideal S1x64 .f32) (((cfg1.win 14).blk t).view.emb (ix2 j k)) = _
  refine congrArg _ ?_
  funext a; apply Fin.ext
  match a with
  | ⟨0, _⟩ => show win1_14.index t (0 : Fin 2) * 1 + 1 * j.val = j.val; omega
  | ⟨1, _⟩ => show win1_14.index t (1 : Fin 2) * 64 + 1 * k.val = k.val; omega

/-- The block point `t` writes back sits at rows `1024 t …` of the result array. -/
theorem emb15 (t : Fin cfg1.N) (p : Fin 1024) (d : Fin 64) :
    ((cfg1.win 15).blk t).view.emb (ix2 p d) = (ix2 (rowAt t p) d : S8192x64.Idx) := by
  obtain ⟨⟨e0, e1⟩, -, -, -⟩ := idx_moving t
  funext a; apply Fin.ext
  match a with
  | ⟨0, _⟩ => show win1_15.index t (0 : Fin 2) * 1024 + 1 * p.val = t.val * 1024 + p.val; omega
  | ⟨1, _⟩ => show win1_15.index t (1 : Fin 2) * 64 + 1 * d.val = d.val; omega

/-- What point `t` writes back is block `t` of the result array `G`. -/
theorem flushed15_eq (c : Dev nD) (t : Fin cfg1.N) :
    (dat1 (V3 (F := Ideal) m ρ) c).flushed 15 t = ((cfg1.win 15).blk t).view.read (Elt Ideal) (G m ρ c) := by
  show (cfg1.win 15).cut (grid1.coords t) ((dat1 (V3 (F := Ideal) m ρ) c).after 15 t) = _
  rw [after1_15]
  unfold out1_15
  rw [View.canon_unit_zero hz]
  simp only [View.ld_unit_zero (S := S1024x64) hz, View.ld_unit_zero (S := S1x64) hz, View.ld_unit_zero (S := S1024x8) hz,
    View.ld_unit_zero (S := S72x64) hz, View.ld_unit_zero (S := S64x64) hz]
  funext y
  obtain ⟨p, d, rfl⟩ : ∃ (p : Fin 1024) (d : Fin 64), y = ix2 p d := ⟨y 0, y 1, eq_ix2 y⟩
  refine (R1.pay1_apply (iblk1 (V3 (F := Ideal) m ρ) c 0 t) (iblk1 (V3 (F := Ideal) m ρ) c 1 t) (iblk1 (V3 (F := Ideal) m ρ) c 2 t) (iblk1 (V3 (F := Ideal) m ρ) c 3 t) (iblk1 (V3 (F := Ideal) m ρ) c 4 t) (iblk1 (V3 (F := Ideal) m ρ) c 5 t) (iblk1 (V3 (F := Ideal) m ρ) c 6 t) (iblk1 (V3 (F := Ideal) m ρ) c 7 t) (iblk1 (V3 (F := Ideal) m ρ) c 8 t) (iblk1 (V3 (F := Ideal) m ρ) c 9 t) (iblk1 (V3 (F := Ideal) m ρ) c 10 t) (iblk1 (V3 (F := Ideal) m ρ) c 11 t) (iblk1 (V3 (F := Ideal) m ρ) c 12 t) (iblk1 (V3 (F := Ideal) m ρ) c 13 t) (iblk1 (V3 (F := Ideal) m ρ) c 14 t) p d).trans ?_
  show _ = G m ρ c (((cfg1.win 15).blk t).view.emb (ix2 p d))
  rw [emb15 t p d]
  show _ = rowOut m ρ c (rowAt t p) d
  unfold rowOut
  simp only [blk0_apply, blk1_apply, blk2_apply, blk3_apply, blk4_apply, blk5_apply, blk6_apply, blk7_apply, blk8_apply,
    blk9_apply, blk10_apply, blk11_apply, blk12_apply, blk13_apply, blk14_apply]

/-- Row `n` lies in the block of point `n / 1024`: the eight blocks cover the array. -/
theorem cover15 (i : S8192x64.Idx) :
    ∃ t : Fin cfg1.N, (cfg1.win 15).flush t = true ∧ i ∈ ((cfg1.win 15).blk t).view.set := by
  have hi0 : (i 0).val < 8192 := (i 0).isLt
  have hi1 : (i 1).val < 64 := (i 1).isLt
  have hN : (i 0).val / 1024 < cfg1.N := lt_of_lt_of_eq (show (i 0).val / 1024 < 8 by omega) N_1.symm
  refine ⟨⟨(i 0).val / 1024, hN⟩, flush1_15 _, ?_⟩
  rw [mem_blk15]
  obtain ⟨⟨e0, e1⟩, -, -, -⟩ := idx_moving ⟨(i 0).val / 1024, hN⟩
  have e0' : win1_15.index ⟨(i 0).val / 1024, hN⟩ (0 : Fin 2) = (i 0).val / 1024 := e0
  intro a
  match a with
  | ⟨0, _⟩ =>
    show win1_15.index ⟨(i 0).val / 1024, hN⟩ (0 : Fin 2) * 1024 ≤ (i 0).val
      ∧ (i 0).val < win1_15.index ⟨(i 0).val / 1024, hN⟩ (0 : Fin 2) * 1024 + 1024
    omega
  | ⟨1, _⟩ =>
    show win1_15.index ⟨(i 0).val / 1024, hN⟩ (1 : Fin 2) * 64 ≤ (i 1).val
      ∧ (i 1).val < win1_15.index ⟨(i 0).val / 1024, hN⟩ (1 : Fin 2) * 64 + 64
    omega

/-- The result array after the region: `G` everywhere. -/
theorem final15 (c : Dev nD) : (dat1 (V3 (F := Ideal) m ρ) c).arrAt 15 cfg1.N = G m ρ c :=
  (dat1 (V3 (F := Ideal) m ρ) c).arrAt_eq_of_cover 15 (G m ρ c) (fun t _ => flushed15_eq m ρ c t) cover15

/-- Row `n`, feature `d` of the update region's result array at the region's exit, from the arrays at its entry. -/
theorem main_v23_apply (c : Dev nD) (n : Fin 8192) (d : Fin 64) :
    (W4 (F := Ideal) m ρ c (Proc.devRef .tc main_v23) : Vec Ideal S8192x64 .f32) (ix2 n d)
      = Spec.out (fun k => (V3 (F := Ideal) m ρ c main_v10 : Vec Ideal S8192x64 .f32) (ix2 n k))
          (fun k => (V3 (F := Ideal) m ρ c main_arg1 : Vec Ideal S8192x8 .f32) (ix2 n k))
          (fun k => (V3 (F := Ideal) m ρ c main_v0 : Vec Ideal S8192x64 .f32) (ix2 n k))
          (fun k => (V3 (F := Ideal) m ρ c main_v11 : Vec Ideal S1x64 .f32) (ix2 (0 : Fin 1) k))
          (fun k => (V3 (F := Ideal) m ρ c main_v12 : Vec Ideal S1x64 .f32) (ix2 (0 : Fin 1) k))
          (fun k => (V3 (F := Ideal) m ρ c main_v13 : Vec Ideal S1x64 .f32) (ix2 (0 : Fin 1) k))
          (fun k => (V3 (F := Ideal) m ρ c main_v14 : Vec Ideal S1x64 .f32) (ix2 (0 : Fin 1) k))
          (fun k => (V3 (F := Ideal) m ρ c main_v15 : Vec Ideal S1x64 .f32) (ix2 (0 : Fin 1) k))
          (fun j k => (V3 (F := Ideal) m ρ c main_v16 : Vec Ideal S72x64 .f32) (ix2 j k))
          (fun k e => (V3 (F := Ideal) m ρ c main_v17 : Vec Ideal S64x64 .f32) (ix2 k e))
          (fun k e => (V3 (F := Ideal) m ρ c main_v18 : Vec Ideal S64x64 .f32) (ix2 k e))
          (fun k e => (V3 (F := Ideal) m ρ c main_v19 : Vec Ideal S64x64 .f32) (ix2 k e))
          (fun k e => (V3 (F := Ideal) m ρ c main_v20 : Vec Ideal S64x64 .f32) (ix2 k e))
          (fun k e => (V3 (F := Ideal) m ρ c main_v21 : Vec Ideal S64x64 .f32) (ix2 k e))
          (fun k e => (V3 (F := Ideal) m ρ c main_v22 : Vec Ideal S64x64 .f32) (ix2 k e)) d := by
  refine (congrFun ((W4_arr (F := Ideal) m ρ c 15).trans (final15 m ρ c)) (ix2 n d)).trans ?_
  rfl

end Cert.KernelIdeal.R1V

end
-- ==== Proof.HostRed.lean ====
/-
  The host's sum of the two halves' accumulators, read at an index over the extended reals: the float zero plus the
  two halves' entries.
-/
import proofs.«166183_j24507083391172_1_alg».proof.Proof.Gen.KernelIdeal
import proofs.«166183_j24507083391172_1_alg».proof.Proof.Spec
import Idealize.ShloMosaic.Lib.ValueIdx
import Idealize.ShloMosaic.PureOps.Ideal.Laws

noncomputable section

namespace Cert.KernelIdeal.HostRed

open Cert.KernelIdeal Cert.KernelIdeal.Facts₀ Idealize.ShloMosaic Idealize.ShloMosaic.ValueIdx

/-- The reduction over the leading axis of the [2, 8192, 64] array of half accumulators, from the zero. -/
theorem reduce_halves (x : Vec Ideal S2x8192x64 .f32) (n : Fin 8192) (d : Fin 64) :
    Host.reduceAdd (F := Ideal) x (constant S_ .f32 0x00000000#32) reducesTo_S2x8192x64_S8192x64_d0 h_S_ (ix2 n d)
      = Spec.z0 + ∑ h : Fin 2, x (ix3 h n d) := by
  -- the same shapes seen as a one-axis reduction with a kept axis: this names the index with the half inserted
  have hR : S2x8192x64.Reduces [0] S8192x64 := by decide
  -- the host's sum is the initial array's one entry plus the sum over the dropped axis
  show Ideal.hostReduceAdd reducesTo_S2x8192x64_S8192x64_d0 x
      (constant (F := Ideal) S_ .f32 0x00000000#32 (Shape.Idx.first h_S_)) (ix2 n d) = _
  rw [Ideal.hostReduceAdd_single reducesTo_S2x8192x64_S8192x64_d0 hR]
  -- the initial value is the float zero; the index with half h inserted is (h, n, d)
  refine congrArg₂ (· + ·) rfl ?_
  refine Finset.sum_congr rfl fun h _ => congrArg x ?_
  funext c
  refine Fin.ext ?_
  rw [hR.lift_val]
  fin_cases c <;> rfl

end Cert.KernelIdeal.HostRed

end
-- ==== Proof.HostGlue.lean ====
/-
  The host stretches of the kernel's program, read: what the first region finds (the incidence matrices as launched,
  the forward embedding `v · fb0ᵀ`, the second feedback matrix transposed, the clause bias as a one-row block), what the
  second region finds (the two halves' accumulators summed from the zero, the ground features, the previous embedding
  as a matrix, the biases as one-row blocks, the weight matrices transposed), and the last reshape of the result.
-/
import proofs.«166183_j24507083391172_1_alg».proof.Proof.Gen.KernelIdeal.Frame
import proofs.«166183_j24507083391172_1_alg».proof.Proof.Spec
import Idealize.ShloMosaic.Lib.ValueIdx
import Idealize.ShloMosaic.Lib.ValueLayout
import Idealize.ShloMosaic.Lib.StableHlo.Run
import Idealize.ShloMosaic.Lib.Pipeline.Value

set_option maxRecDepth 16384

noncomputable section

namespace Cert.KernelIdeal.HG

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

macro "nw" l:ident : tactic => `(tactic| (refine List.forall_iff_forall_mem.mp ?_; simp only [$l:ident, List.Forall, StableHlo.nullary_writes, StableHlo.unary_writes, StableHlo.binary_writes, StableHlo.reshape_writes, Finset.mem_singleton]; (repeat' apply And.intro); all_goals exact StableHlo.devRef_ne_of_ne (by decide)))

theorem W1_of_launch (c : Dev nD) (b : Ref sig .tc)
    (h0 : ∀ op ∈ (hostOps0 : List (HloOp τ sig (Elt Ideal))), Proc.devRef .tc b ∉ op.writes) :
    W1 m ρ c (Proc.devRef .tc b) = m ((c : Thread nD τ).loc b) :=
  (StableHlo.after_of_forall_not_mem _ _ h0).trans rfl

theorem W2_of_launch (c : Dev nD) (b : Ref sig .tc)
    (h0 : ∀ op ∈ (hostOps0 : List (HloOp τ sig (Elt Ideal))), Proc.devRef .tc b ∉ op.writes)
    (h1 : ∀ w, Pipeline.arrRef spec0 w ≠ b) :
    W2 m ρ c (Proc.devRef .tc b) = m ((c : Thread nD τ).loc b) :=
  (W2_of_ne m ρ c b h1).trans (W1_of_launch m ρ c b h0)

theorem V1_arg2 (c : Dev nD) : V1 m ρ c main_arg2 = m ((c : Thread nD τ).loc main_arg2) :=
  W1_of_launch m ρ c main_arg2 (by nw hostOps0)

theorem V1_arg3 (c : Dev nD) : V1 m ρ c main_arg3 = m ((c : Thread nD τ).loc main_arg3) :=
  W1_of_launch m ρ c main_arg3 (by nw hostOps0)

/-- The previous embedding as a matrix, the two feedback matrices transposed, and the forward embedding `v · fb0ᵀ` the
    host computes before the first region. -/
abbrev vArr (c : Dev nD) : FVec Ideal S8192x64 .f32 :=
  shapeCast S8192x64 (m ((c : Thread nD τ).loc main_arg0) : FVec Ideal S1x8192x64 .f32) shapeCasts_S1x8192x64_S8192x64
abbrev fb0T (c : Dev nD) : FVec Ideal S64x64 .f32 :=
  transpose S64x64 [1, 0]
    (shapeCast S64x64 (extractStridedSlice S1x64x64 ![0, 0, 0] (m ((c : Thread nD τ).loc main_arg6) : FVec Ideal S2x64x64 .f32) slices_S2x64x64_S1x64x64_0_0_0)
      shapeCasts_S1x64x64_S64x64) transposes_S64x64_S64x64_1_0
abbrev fb1T (c : Dev nD) : FVec Ideal S64x64 .f32 :=
  transpose S64x64 [1, 0]
    (shapeCast S64x64 (extractStridedSlice S1x64x64 ![1, 0, 0] (m ((c : Thread nD τ).loc main_arg6) : FVec Ideal S2x64x64 .f32) slices_S2x64x64_S1x64x64_1_0_0)
      shapeCasts_S1x64x64_S64x64) transposes_S64x64_S64x64_1_0
abbrev vfwd (c : Dev nD) : FVec Ideal S8192x64 .f32 :=
  Host.dotGeneral (F := Ideal) dot_S8192x64_S64x64_S8192x64_1_0_0_1_n_n none (vArr m c) (fb0T m c)

theorem V1_v6 (c : Dev nD) : (V1 m ρ c main_v6 : Vec Ideal S8192x64 .f32) = vfwd m c := by
  show StableHlo.after hostOps0 (W0 m ρ c) (Proc.devRef .tc main_v6) = _
  after_results
  rfl

theorem V1_v7 (c : Dev nD) : (V1 m ρ c main_v7 : Vec Ideal S64x64 .f32) = fb1T m c := by
  show StableHlo.after hostOps0 (W0 m ρ c) (Proc.devRef .tc main_v7) = _
  after_results
  rfl

theorem V1_v8 (c : Dev nD) : (V1 m ρ c main_v8 : Vec Ideal S1x64 .f32)
    = shapeCast S1x64 (m ((c : Thread nD τ).loc main_arg8)) shapeCasts_S64_S1x64 := by
  show StableHlo.after hostOps0 (W0 m ρ c) (Proc.devRef .tc main_v8) = _
  after_results
  rfl

theorem W1_v0 (c : Dev nD) : (W1 m ρ c (Proc.devRef .tc main_v0) : Vec Ideal S8192x64 .f32)
    = shapeCast S8192x64 (m ((c : Thread nD τ).loc main_arg0)) shapeCasts_S1x8192x64_S8192x64 := by
  show StableHlo.after hostOps0 (W0 m ρ c) (Proc.devRef .tc main_v0) = _
  after_results
  rfl

theorem V3_v10 (c : Dev nD) : (V3 m ρ c main_v10 : Vec Ideal S8192x64 .f32)
    = Host.reduceAdd (F := Ideal) ((dat0 (V1 m ρ) c).arrAt 5 cfg0.N : Vec Ideal S2x8192x64 .f32)
        (constant S_ .f32 0x00000000#32) reducesTo_S2x8192x64_S8192x64_d0 h_S_ := by
  show StableHlo.after hostOps1 (W2 m ρ c) (Proc.devRef .tc main_v10) = _
  after_results
  rw [show W2 m ρ c (Proc.devRef .tc main_v9) = (dat0 (V1 m ρ) c).arrAt 5 cfg0.N from W2_arr m ρ c 5]

theorem V3_arg1 (c : Dev nD) : V3 m ρ c main_arg1 = m ((c : Thread nD τ).loc main_arg1) :=
  (StableHlo.after_of_forall_not_mem (b := Proc.devRef .tc main_arg1) _ _ (by nw hostOps1)).trans
    (W2_of_launch m ρ c main_arg1 (by nw hostOps0) (by decide))

theorem V3_v0 (c : Dev nD) : (V3 m ρ c main_v0 : Vec Ideal S8192x64 .f32)
    = shapeCast S8192x64 (m ((c : Thread nD τ).loc main_arg0)) shapeCasts_S1x8192x64_S8192x64 :=
  (StableHlo.after_of_forall_not_mem (b := Proc.devRef .tc main_v0) _ _ (by nw hostOps1)).trans
    ((W2_of_ne m ρ c main_v0 (by decide)).trans (W1_v0 m ρ c))

theorem V3_v11 (c : Dev nD) : (V3 m ρ c main_v11 : Vec Ideal S1x64 .f32)
    = shapeCast S1x64 (m ((c : Thread nD τ).loc main_arg7)) shapeCasts_S64_S1x64 := by
  show StableHlo.after hostOps1 (W2 m ρ c) (Proc.devRef .tc main_v11) = _
  after_results
  rw [W2_of_launch m ρ c main_arg7 (by nw hostOps0) (by decide)]
  rfl

theorem V3_v16 (c : Dev nD) : (V3 m ρ c main_v16 : Vec Ideal S72x64 .f32)
    = transpose S72x64 [1, 0] (m ((c : Thread nD τ).loc main_arg9)) transposes_S64x72_S72x64_1_0 := by
  show StableHlo.after hostOps1 (W2 m ρ c) (Proc.devRef .tc main_v16) = _
  after_results
  rw [W2_of_launch m ρ c main_arg9 (by nw hostOps0) (by decide)]

theorem V3_v12 (c : Dev nD) : (V3 m ρ c main_v12 : Vec Ideal S1x64 .f32)
    = shapeCast S1x64 (m ((c : Thread nD τ).loc main_arg10)) shapeCasts_S64_S1x64 := by
  show StableHlo.after hostOps1 (W2 m ρ c) (Proc.devRef .tc main_v12) = _
  after_results
  rw [W2_of_launch m ρ c main_arg10 (by nw hostOps0) (by decide)]
  rfl

theorem V3_v13 (c : Dev nD) : (V3 m ρ c main_v13 : Vec Ideal S1x64 .f32)
    = shapeCast S1x64 (m ((c : Thread nD τ).loc main_arg13)) shapeCasts_S64_S1x64 := by
  show StableHlo.after hostOps1 (W2 m ρ c) (Proc.devRef .tc main_v13) = _
  after_results
  rw [W2_of_launch m ρ c main_arg13 (by nw hostOps0) (by decide)]
  rfl

theorem V3_v14 (c : Dev nD) : (V3 m ρ c main_v14 : Vec Ideal S1x64 .f32)
    = shapeCast S1x64 (m ((c : Thread nD τ).loc main_arg16)) shapeCasts_S64_S1x64 := by
  show StableHlo.after hostOps1 (W2 m ρ c) (Proc.devRef .tc main_v14) = _
  after_results
  rw [W2_of_launch m ρ c main_arg16 (by nw hostOps0) (by decide)]
  rfl

theorem V3_v15 (c : Dev nD) : (V3 m ρ c main_v15 : Vec Ideal S1x64 .f32)
    = shapeCast S1x64 (m ((c : Thread nD τ).loc main_arg19)) shapeCasts_S64_S1x64 := by
  show StableHlo.after hostOps1 (W2 m ρ c) (Proc.devRef .tc main_v15) = _
  after_results
  rw [W2_of_launch m ρ c main_arg19 (by nw hostOps0) (by decide)]
  rfl

theorem V3_v17 (c : Dev nD) : (V3 m ρ c main_v17 : Vec Ideal S64x64 .f32)
    = transpose S64x64 [1, 0] (m ((c : Thread nD τ).loc main_arg11)) transposes_S64x64_S64x64_1_0 := by
  show StableHlo.after hostOps1 (W2 m ρ c) (Proc.devRef .tc main_v17) = _
  after_results
  rw [W2_of_launch m ρ c main_arg11 (by nw hostOps0) (by decide)]

theorem V3_v18 (c : Dev nD) : (V3 m ρ c main_v18 : Vec Ideal S64x64 .f32)
    = transpose S64x64 [1, 0] (m ((c : Thread nD τ).loc main_arg12)) transposes_S64x64_S64x64_1_0 := by
  show StableHlo.after hostOps1 (W2 m ρ c) (Proc.devRef .tc main_v18) = _
  after_results
  rw [W2_of_launch m ρ c main_arg12 (by nw hostOps0) (by decide)]

theorem V3_v19 (c : Dev nD) : (V3 m ρ c main_v19 : Vec Ideal S64x64 .f32)
    = transpose S64x64 [1, 0] (m ((c : Thread nD τ).loc main_arg14)) transposes_S64x64_S64x64_1_0 := by
  show StableHlo.after hostOps1 (W2 m ρ c) (Proc.devRef .tc main_v19) = _
  after_results
  rw [W2_of_launch m ρ c main_arg14 (by nw hostOps0) (by decide)]

theorem V3_v20 (c : Dev nD) : (V3 m ρ c main_v20 : Vec Ideal S64x64 .f32)
    = transpose S64x64 [1, 0] (m ((c : Thread nD τ).loc main_arg15)) transposes_S64x64_S64x64_1_0 := by
  show StableHlo.after hostOps1 (W2 m ρ c) (Proc.devRef .tc main_v20) = _
  after_results
  rw [W2_of_launch m ρ c main_arg15 (by nw hostOps0) (by decide)]

theorem V3_v21 (c : Dev nD) : (V3 m ρ c main_v21 : Vec Ideal S64x64 .f32)
    = transpose S64x64 [1, 0] (m ((c : Thread nD τ).loc main_arg17)) transposes_S64x64_S64x64_1_0 := by
  show StableHlo.after hostOps1 (W2 m ρ c) (Proc.devRef .tc main_v21) = _
  after_results
  rw [W2_of_launch m ρ c main_arg17 (by nw hostOps0) (by decide)]

theorem V3_v22 (c : Dev nD) : (V3 m ρ c main_v22 : Vec Ideal S64x64 .f32)
    = transpose S64x64 [1, 0] (m ((c : Thread nD τ).loc main_arg18)) transposes_S64x64_S64x64_1_0 := by
  show StableHlo.after hostOps1 (W2 m ρ c) (Proc.devRef .tc main_v22) = _
  after_results
  rw [W2_of_launch m ρ c main_arg18 (by nw hostOps0) (by decide)]

theorem W5_v24 (c : Dev nD) : (W5 m ρ c (Proc.devRef .tc main_v24) : Vec Ideal S1x524288x1 .f32)
    = shapeCast S1x524288x1 (W4 m ρ c (Proc.devRef .tc main_v23) : Vec Ideal S8192x64 .f32) shapeCasts_S8192x64_S1x524288x1 := by
  show StableHlo.after hostOps2 (W4 m ρ c) (Proc.devRef .tc main_v24) = _
  after_results
  rfl

end Cert.KernelIdeal.HG

end
-- ==== Proof.KernelVal.lean ====
/-
  The kernel program's value: row `n`, feature `d` of what the second region leaves in its result array is the
  specification's update of variable `n`, the received message being the specification's sum over all clauses.
  The first region's blocks are read off the launch arrays (tile `t`'s row `q` is clause `128 t + q`), so each grid
  point's contribution is the specification's tile; the halves' accumulators, summed by the host from the zero, are
  the whole sum regrouped.
-/
import proofs.«166183_j24507083391172_1_alg».proof.Proof.Gen.KernelIdeal.Frame
import proofs.«166183_j24507083391172_1_alg».proof.Proof.Spec
import proofs.«166183_j24507083391172_1_alg».proof.Proof.SpecSplit
import proofs.«166183_j24507083391172_1_alg».proof.Proof.R0Pay
import proofs.«166183_j24507083391172_1_alg».proof.Proof.R0Acc
import proofs.«166183_j24507083391172_1_alg».proof.Proof.R0Arr
import proofs.«166183_j24507083391172_1_alg».proof.Proof.R1Val
import proofs.«166183_j24507083391172_1_alg».proof.Proof.HostRed
import proofs.«166183_j24507083391172_1_alg».proof.Proof.HostGlue
import Idealize.ShloMosaic.Lib.ValueIdx
import Idealize.ShloMosaic.Lib.ValueLayout
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The specification's parameters, read off the launch arrays. -/
abbrev pos (c : Dev nD) : Fin 32768 → Fin 8192 → EReal :=
  fun r j => (m ((c : Thread nD τ).loc main_arg2) : Vec Ideal S32768x8192 .f32) (ix2 r j)
abbrev neg (c : Dev nD) : Fin 32768 → Fin 8192 → EReal :=
  fun r j => (m ((c : Thread nD τ).loc main_arg3) : Vec Ideal S32768x8192 .f32) (ix2 r j)
abbrev vf (c : Dev nD) : Fin 8192 → Fin 64 → EReal := fun j k => HG.vfwd m c (ix2 j k)
abbrev cb (c : Dev nD) : Fin 64 → EReal := fun k => (m ((c : Thread nD τ).loc main_arg8) : Vec Ideal S64 .f32) (ix1 k)
abbrev fb (c : Dev nD) : Fin 64 → Fin 64 → EReal := fun k e => HG.fb1T m c (ix2 k e)

theorem lt256 (t : Fin cfg0.N) : t.val < 256 := lt_of_lt_of_eq t.isLt N_0

/-- The grid point as a tile number. -/
def tIdx (t : Fin cfg0.N) : Fin 256 := ⟨t.val, lt256 t⟩

/-- The incidence windows' block index is the point on the clause axis; the three parameter windows stay at zero. -/
theorem idx_r0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Row `q` of point `t`'s positive-incidence block is clause `128 t + q`. -/
theorem pos_apply (c : Dev nD) (t : Fin cfg0.N) (q : Fin 128) (j : Fin 8192) :
    (iblk0 (V1 (F := Ideal) m ρ) c 0 t : Vec Ideal S128x8192 .f32) (ix2 q j) = pos m c (Spec.rowOf (tIdx t) q) j := by
  obtain ⟨⟨e0, e1⟩, -⟩ := idx_r0 t
  show (V1 (F := Ideal) m ρ c main_arg2 : Vec Ideal S32768x8192 .f32) (((cfg0.win 0).blk t).view.emb (ix2 q j)) = _
  rw [HG.V1_arg2]
  refine congrArg _ ?_
  funext a; apply Fin.ext
  match a with
  | ⟨0, _⟩ => show win0_0.index t (0 : Fin 2) * 128 + 1 * q.val = t.val * 128 + q.val; omega
  | ⟨1, _⟩ => show win0_0.index t (1 : Fin 2) * 8192 + 1 * j.val = j.val; omega

/-- The same for the negative-incidence block. -/
theorem neg_apply (c : Dev nD) (t : Fin cfg0.N) (q : Fin 128) (j : Fin 8192) :
    (iblk0 (V1 (F := Ideal) m ρ) c 1 t : Vec Ideal S128x8192 .f32) (ix2 q j) = neg m c (Spec.rowOf (tIdx t) q) j := by
  obtain ⟨-, ⟨e0, e1⟩, -⟩ := idx_r0 t
  show (V1 (F := Ideal) m ρ c main_arg3 : Vec Ideal S32768x8192 .f32) (((cfg0.win 1).blk t).view.emb (ix2 q j)) = _
  rw [HG.V1_arg3]
  refine congrArg _ ?_
  funext a; apply Fin.ext
  match a with
  | ⟨0, _⟩ => show win0_1.index t (0 : Fin 2) * 128 + 1 * q.val = t.val * 128 + q.val; omega
  | ⟨1, _⟩ => show win0_1.index t (1 : Fin 2) * 8192 + 1 * j.val = j.val; omega

/-- The forward-embedding window is its whole array at every point. -/
theorem vf_apply (c : Dev nD) (t : Fin cfg0.N) (j : Fin 8192) (k : Fin 64) :
    (iblk0 (V1 (F := Ideal) m ρ) c 2 t : Vec Ideal S8192x64 .f32) (ix2 j k) = vf m c j k := by
  obtain ⟨-, -, ⟨e0, e1⟩, -⟩ := idx_r0 t
  show (V1 (F := Ideal) m ρ c main_v6 : Vec Ideal S8192x64 .f32) (((cfg0.win 2).blk t).view.emb (ix2 j k)) = _
  rw [HG.V1_v6]
  refine congrArg _ ?_
  funext a; apply Fin.ext
  match a with
  | ⟨0, _⟩ => show win0_2.index t (0 : Fin 2) * 8192 + 1 * j.val = j.val; omega
  | ⟨1, _⟩ => show win0_2.index t (1 : Fin 2) * 64 + 1 * k.val = k.val; omega

/-- The feedback-matrix window is its whole array at every point. -/
theorem fb_apply (c : Dev nD) (t : Fin cfg0.N) (k : Fin 64) (e : Fin 64) :
    (iblk0 (V1 (F := Ideal) m ρ) c 3 t : Vec Ideal S64x64 .f32) (ix2 k e) = fb m c k e := by
  obtain ⟨-, -, -, ⟨e0, e1⟩, -⟩ := idx_r0 t
  show (V1 (F := Ideal) m ρ c main_v7 : Vec Ideal S64x64 .f32) (((cfg0.win 3).blk t).view.emb (ix2 k e)) = _
  rw [HG.V1_v7]
  refine congrArg _ ?_
  funext a; apply Fin.ext
  match a with
  | ⟨0, _⟩ => show win0_3.index t (0 : Fin 2) * 64 + 1 * k.val = k.val; omega
  | ⟨1, _⟩ => show win0_3.index t (1 : Fin 2) * 64 + 1 * e.val = e.val; omega

/-- The clause-bias window is the bias as one row. -/
theorem cb_apply (c : Dev nD) (t : Fin cfg0.N) (k : Fin 64) :
    (iblk0 (V1 (F := Ideal) m ρ) c 4 t : Vec Ideal S1x64 .f32) (ix2 (0 : Fin 1) k) = cb m c k := by
  obtain ⟨-, -, -, -, e0, e1⟩ := idx_r0 t
  show (V1 (F := Ideal) m ρ c main_v8 : Vec Ideal S1x64 .f32) (((cfg0.win 4).blk t).view.emb (ix2 (0 : Fin 1) k)) = _
  rw [HG.V1_v8]
  refine Eq.trans (congrArg _ ?_) (shapeCast_a_1a_apply _ _ (0 : Fin 1) k)
  funext a; apply Fin.ext
  match a with
  | ⟨0, _⟩ => show win0_4.index t (0 : Fin 2) * 1 + 1 * 0 = 0; omega
  | ⟨1, _⟩ => show win0_4.index t (1 : Fin 2) * 64 + 1 * k.val = k.val; omega

/-- A grid point's tile contribution, from its blocks, is the specification's tile. -/
theorem T_eq_tile (c : Dev nD) (k : ℕ) (hk : k < 256) (n : Fin 8192) (d : Fin 64) :
    R0A.T (V1 (F := Ideal) m ρ) c k n d = Spec.tile (pos m c) (neg m c) (vf m c) (cb m c) (fb m c) ⟨k, hk⟩ n d := by
  have hN : k < cfg0.N := lt_of_lt_of_eq hk N_0.symm
  rw [R0A.T_of_lt _ c k hN]
  unfold R0.blkTile Spec.tile
  refine Finset.sum_congr rfl fun q _ => ?_
  rw [pos_apply m ρ c ⟨k, hN⟩ q n, neg_apply m ρ c ⟨k, hN⟩ q n]
  refine congrArg₂ (· * ·) rfl ?_
  unfold R0.blkMsg Spec.msg
  refine Finset.sum_congr rfl fun e _ => ?_
  rw [fb_apply m ρ c ⟨k, hN⟩ e d]
  refine congrArg₂ (· * ·) ?_ rfl
  unfold Spec.clause
  refine congrArg₂ max ?_ rfl
  rw [cb_apply m ρ c ⟨k, hN⟩ e]
  refine congrArg₂ (· + ·) (Finset.sum_congr rfl fun j _ => ?_) rfl
  rw [pos_apply m ρ c ⟨k, hN⟩ q j, neg_apply m ρ c ⟨k, hN⟩ q j, vf_apply m ρ c ⟨k, hN⟩ j e]
  rfl

/-- The two halves' accumulators summed from the zero are the specification's sum over all clauses, when each half's
    accumulator is the sum of its tiles. -/
theorem nv_of_halves (P N : Fin 32768 → Fin 8192 → EReal) (VF : Fin 8192 → Fin 64 → EReal) (CB : Fin 64 → EReal)
    (FB : Fin 64 → Fin 64 → EReal) (x : Vec Ideal S2x8192x64 .f32) (n : Fin 8192) (k : Fin 64)
    (hx : ∀ h : Fin 2, x (ix3 h n k) = ∑ i : Fin 128, Spec.tile P N VF CB FB (Spec.tileOf h i) n k) :
    Host.reduceAdd (F := Ideal) x (constant S_ .f32 0x00000000#32) reducesTo_S2x8192x64_S8192x64_d0 h_S_ (ix2 n k)
      = Spec.nv P N VF CB FB n k := by
  rw [HostRed.reduce_halves, Spec.z0_eq, zero_add, Spec.nv_split]
  exact Finset.sum_congr (M := EReal) rfl fun h _ => hx h

/-- What the second region finds as the received message is the specification's sum over all clauses. -/
theorem nv_apply (c : Dev nD) (n : Fin 8192) (k : Fin 64) :
    (V3 (F := Ideal) m ρ c main_v10 : Vec Ideal S8192x64 .f32) (ix2 n k)
      = Spec.nv (pos m c) (neg m c) (vf m c) (cb m c) (fb m c) n k := by
  rw [HG.V3_v10]
  refine nv_of_halves (pos m c) (neg m c) (vf m c) (cb m c) (fb m c) _ n k fun h => ?_
  rw [R0R.arr_apply]
  exact Finset.sum_congr (M := EReal) rfl fun i _ =>
    T_eq_tile m ρ c (h.val * 128 + i.val) (Spec.tileOf h i).isLt n k

/-- Row `n`, feature `d` of the second region's result array. -/
theorem kernel_apply (c : Dev nD) (n : Fin 8192) (d : Fin 64) :
    (W4 (F := Ideal) m ρ c (Proc.devRef .tc main_v23) : Vec Ideal S8192x64 .f32) (ix2 n d)
      = Spec.out (Spec.nv (pos m c) (neg m c) (vf m c) (cb m c) (fb m c) n)
          (fun k => (m ((c : Thread nD τ).loc main_arg1) : Vec Ideal S8192x8 .f32) (ix2 n k))
          (fun k => HG.vArr m c (ix2 n k))
          (fun k => (m ((c : Thread nD τ).loc main_arg7) : Vec Ideal S64 .f32) (ix1 k))
          (fun k => (m ((c : Thread nD τ).loc main_arg10) : Vec Ideal S64 .f32) (ix1 k))
          (fun k => (m ((c : Thread nD τ).loc main_arg13) : Vec Ideal S64 .f32) (ix1 k))
          (fun k => (m ((c : Thread nD τ).loc main_arg16) : Vec Ideal S64 .f32) (ix1 k))
          (fun k => (m ((c : Thread nD τ).loc main_arg19) : Vec Ideal S64 .f32) (ix1 k))
          (fun j k => (transpose S72x64 [1, 0] (m ((c : Thread nD τ).loc main_arg9)) transposes_S64x72_S72x64_1_0 : FVec Ideal S72x64 .f32) (ix2 j k))
          (fun k e => (transpose S64x64 [1, 0] (m ((c : Thread nD τ).loc main_arg11)) transposes_S64x64_S64x64_1_0 : FVec Ideal S64x64 .f32) (ix2 k e))
          (fun k e => (transpose S64x64 [1, 0] (m ((c : Thread nD τ).loc main_arg12)) transposes_S64x64_S64x64_1_0 : FVec Ideal S64x64 .f32) (ix2 k e))
          (fun k e => (transpose S64x64 [1, 0] (m ((c : Thread nD τ).loc main_arg14)) transposes_S64x64_S64x64_1_0 : FVec Ideal S64x64 .f32) (ix2 k e))
          (fun k e => (transpose S64x64 [1, 0] (m ((c : Thread nD τ).loc main_arg15)) transposes_S64x64_S64x64_1_0 : FVec Ideal S64x64 .f32) (ix2 k e))
          (fun k e => (transpose S64x64 [1, 0] (m ((c : Thread nD τ).loc main_arg17)) transposes_S64x64_S64x64_1_0 : FVec Ideal S64x64 .f32) (ix2 k e))
          (fun k e => (transpose S64x64 [1, 0] (m ((c : Thread nD τ).loc main_arg18)) transposes_S64x64_S64x64_1_0 : FVec Ideal S64x64 .f32) (ix2 k e)) d := by
  rw [R1V.main_v23_apply]
  have h10 : (fun k => (V3 (F := Ideal) m ρ c main_v10 : Vec Ideal S8192x64 .f32) (ix2 n k))
      = Spec.nv (pos m c) (neg m c) (vf m c) (cb m c) (fb m c) n := funext fun k => nv_apply m ρ c n k
  rw [h10, HG.V3_arg1, HG.V3_v0, HG.V3_v11, HG.V3_v12, HG.V3_v13, HG.V3_v14, HG.V3_v15, HG.V3_v16, HG.V3_v17, HG.V3_v18,
    HG.V3_v19, HG.V3_v20, HG.V3_v21, HG.V3_v22]
  simp only [shapeCast_a_1a_apply]

end Cert.KernelIdeal.KV

end
-- ==== Proof.RefVal.lean ====
/-
  The reference program, read at an index over the extended reals: its last stage before the final reshape is the
  specification's update of every variable row, the received message being the plain sum over all clauses.
-/
import proofs.«166183_j24507083391172_1_alg».proof.Proof.Gen.ReferenceIdeal.Read
import proofs.«166183_j24507083391172_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.Read Idealize.ShloMosaic Idealize.ShloMosaic.ValueIdx
open Cert.ReferenceIdeal.Gen (concatenates_S8192x8_S8192x64_S8192x72_d1)

section
variable (x0 : (⟨S1x8192x64, .f32⟩ : BufTy).Contents (Elt Ideal)) (x1 : (⟨S8192x8, .f32⟩ : BufTy).Contents (Elt Ideal))
  (x2 x3 : (⟨S32768x8192, .f32⟩ : BufTy).Contents (Elt Ideal)) (x6 : (⟨S2x64x64, .f32⟩ : BufTy).Contents (Elt Ideal))
  (x7 x8 : (⟨S64, .f32⟩ : BufTy).Contents (Elt Ideal)) (x9 : (⟨S64x72, .f32⟩ : BufTy).Contents (Elt Ideal))
  (x10 : (⟨S64, .f32⟩ : BufTy).Contents (Elt Ideal)) (x11 x12 : (⟨S64x64, .f32⟩ : BufTy).Contents (Elt Ideal))
  (x13 : (⟨S64, .f32⟩ : BufTy).Contents (Elt Ideal)) (x14 x15 : (⟨S64x64, .f32⟩ : BufTy).Contents (Elt Ideal))
  (x16 : (⟨S64, .f32⟩ : BufTy).Contents (Elt Ideal)) (x17 x18 : (⟨S64x64, .f32⟩ : BufTy).Contents (Elt Ideal))
  (x19 : (⟨S64, .f32⟩ : BufTy).Contents (Elt Ideal))

/-! ### The clause pass -/

private theorem lidx6 (r : Fin 32768) (k : Fin 64) (n : Fin 8192) : lidx_main_v6 (ix2 r k) n = ix2 r n :=
  funext fun a => Fin.ext (by match a with | ⟨0, _⟩ => rfl | ⟨1, _⟩ => rfl)
private theorem ridx6 (r : Fin 32768) (k : Fin 64) (n : Fin 8192) : ridx_main_v6 (ix2 r k) n = ix2 n k :=
  funext fun a => Fin.ext (by match a with | ⟨0, _⟩ => rfl | ⟨1, _⟩ => rfl)
private theorem idx78 (r : Fin 32768) (k : Fin 64) : idx_main_v7 (idx_main_v8 (ix2 r k)) = ix1 k :=
  funext fun a => Fin.ext (by match a with | ⟨0, _⟩ => rfl)

/-- The rectified clause embedding is the specification's. -/
theorem clause_apply (r : Fin 32768) (k : Fin 64) :
    val_main_v10 (F := Ideal) x0 x2 x3 x6 x8 (ix2 r k)
      = Spec.clause (fun r j => x2 (ix2 r j)) (fun r j => x3 (ix2 r j)) (fun j k => val_main_v5 (F := Ideal) x0 x6 (ix2 j k))
          (fun k => x8 (ix1 k)) r k := by
  rw [val_main_v10_apply, val_main_v9_apply, val_main_v6_apply, val_main_v8_apply, val_main_v7_apply,
    val_main_call0_v0_apply, val_main_call0_cst_apply]
  unfold Spec.clause Spec.cm
  simp only [Ideal.maximumf_def, Ideal.addf_def, Ideal.ofBits_def, val_main_v1_apply, Ideal.subf_def, lidx6, ridx6, idx78]

private theorem lidx15 (r : Fin 32768) (d k : Fin 64) : lidx_main_v15 (ix2 r d) k = ix2 r k :=
  funext fun a => Fin.ext (by match a with | ⟨0, _⟩ => rfl | ⟨1, _⟩ => rfl)
private theorem ridx15 (r : Fin 32768) (d k : Fin 64) : ridx_main_v15 (ix2 r d) k = ix2 k d :=
  funext fun a => Fin.ext (by match a with | ⟨0, _⟩ => rfl | ⟨1, _⟩ => rfl)

/-- The clause message is the specification's. -/
theorem msg_apply (r : Fin 32768) (d : Fin 64) :
    val_main_v15 (F := Ideal) x0 x2 x3 x6 x8 (ix2 r d)
      = Spec.msg (fun r j => x2 (ix2 r j)) (fun r j => x3 (ix2 r j)) (fun j k => val_main_v5 (F := Ideal) x0 x6 (ix2 j k))
          (fun k => x8 (ix1 k)) (fun k e => val_main_v14 (F := Ideal) x6 (ix2 k e)) r d := by
  rw [val_main_v15_apply]
  unfold Spec.msg
  simp only [lidx15, ridx15, clause_apply]

private theorem lidx16 (n : Fin 8192) (d : Fin 64) (r : Fin 32768) : lidx_main_v16 (ix2 n d) r = ix2 n r :=
  funext fun a => Fin.ext (by match a with | ⟨0, _⟩ => rfl | ⟨1, _⟩ => rfl)
private theorem ridx16 (n : Fin 8192) (d : Fin 64) (r : Fin 32768) : ridx_main_v16 (ix2 n d) r = ix2 r d :=
  funext fun a => Fin.ext (by match a with | ⟨0, _⟩ => rfl | ⟨1, _⟩ => rfl)
private theorem idx11 (n : Fin 8192) (r : Fin 32768) : idx_main_v11 (ix2 n r) = ix2 r n :=
  funext fun a => Fin.ext (by match a with | ⟨0, _⟩ => rfl | ⟨1, _⟩ => rfl)

/-- What a variable receives is the specification's sum over all clauses. -/
theorem nv_apply (n : Fin 8192) (d : Fin 64) :
    val_main_v16 (F := Ideal) x0 x2 x3 x6 x8 (ix2 n d)
      = Spec.nv (fun r j => x2 (ix2 r j)) (fun r j => x3 (ix2 r j)) (fun j k => val_main_v5 (F := Ideal) x0 x6 (ix2 j k))
          (fun k => x8 (ix1 k)) (fun k e => val_main_v14 (F := Ideal) x6 (ix2 k e)) n d := by
  rw [val_main_v16_apply]
  unfold Spec.nv Spec.cm
  simp only [lidx16, ridx16, msg_apply, val_main_v11_apply, idx11, val_main_v1_apply, Ideal.subf_def]

/-! ### The variable update -/

private theorem idx1718 (n : Fin 8192) (d : Fin 64) : idx_main_v17 (idx_main_v18 (ix2 n d)) = ix1 d :=
  funext fun a => Fin.ext (by match a with | ⟨0, _⟩ => rfl)

/-- The received message plus its bias, rectified. -/
theorem relu_apply (n : Fin 8192) (e : Fin 64) :
    val_main_v20 (F := Ideal) x0 x2 x3 x6 x7 x8 (ix2 n e)
      = max (val_main_v16 (F := Ideal) x0 x2 x3 x6 x8 (ix2 n e) + x7 (ix1 e)) Spec.z0 := by
  rw [val_main_v20_apply, val_main_v19_apply, val_main_v18_apply, val_main_v17_apply, val_main_call1_v0_apply,
    val_main_call1_cst_apply]
  simp only [Ideal.maximumf_def, Ideal.addf_def, Ideal.ofBits_def, idx1718]

/-- The joined row: the ground features in the first eight columns, the rectified message after them. -/
theorem cat_apply (n : Fin 8192) (j : Fin 72) :
    val_main_v21 (F := Ideal) x0 x1 x2 x3 x6 x7 x8 (ix2 n j)
      = Spec.cat (fun e => val_main_v16 (F := Ideal) x0 x2 x3 x6 x8 (ix2 n e)) (fun k => x1 (ix2 n k)) (fun k => x7 (ix1 k)) j := by
  unfold val_main_v21 Spec.cat
  generalize hy : val_main_v20 (F := Ideal) x0 x2 x3 x6 x7 x8 = y
  by_cases h : j.val < 8
  · rw [dif_pos h]
    exact concatenate_pair_apply_left (1 : Fin S8192x72.rank) x1 y concatenates_S8192x8_S8192x64_S8192x72_d1 (ix2 n j) rfl
      (ix2 n ⟨j.val, h⟩) (fun b => match b with | ⟨0, _⟩ => rfl | ⟨1, _⟩ => rfl)
  · rw [dif_neg h]
    have hj := j.isLt
    refine (concatenate_pair_apply_right (1 : Fin S8192x72.rank) x1 y concatenates_S8192x8_S8192x64_S8192x72_d1 (ix2 n j) rfl rfl
      (ix2 n ⟨j.val - 8, by omega⟩) (fun b => match b with | ⟨0, _⟩ => fun _ => rfl | ⟨1, _⟩ => fun hb => absurd rfl hb) ?_).trans ?_
    · show j.val - 8 + 8 = j.val
      omega
    · rw [← hy, relu_apply]

private theorem lidx23 (n : Fin 8192) (d : Fin 64) (k : Fin 72) : lidx_main_v23 (ix2 n d) k = ix2 n k :=
  funext fun a => Fin.ext (by match a with | ⟨0, _⟩ => rfl | ⟨1, _⟩ => rfl)
private theorem ridx23 (n : Fin 8192) (d : Fin 64) (k : Fin 72) : ridx_main_v23 (ix2 n d) k = ix2 k d :=
  funext fun a => Fin.ext (by match a with | ⟨0, _⟩ => rfl | ⟨1, _⟩ => rfl)
private theorem idx2425 (n : Fin 8192) (d : Fin 64) : idx_main_v24 (idx_main_v25 (ix2 n d)) = ix1 d :=
  funext fun a => Fin.ext (by match a with | ⟨0, _⟩ => rfl)

/-- The combined embedding. -/
theorem emb_apply (n : Fin 8192) (d : Fin 64) :
    val_main_v27 (F := Ideal) x0 x1 x2 x3 x6 x7 x8 x9 x10 (ix2 n d)
      = Spec.emb (fun e => val_main_v16 (F := Ideal) x0 x2 x3 x6 x8 (ix2 n e)) (fun k => x1 (ix2 n k)) (fun k => x7 (ix1 k)) (fun k => x10 (ix1 k))
          (fun j k => val_main_v22 (F := Ideal) x9 (ix2 j k)) d := by
  rw [val_main_v27_apply, val_main_v26_apply, val_main_v23_apply, val_main_v25_apply, val_main_v24_apply]
  unfold Spec.emb
  simp only [Ideal.hostUnary_tanh_def, Ideal.addf_def, lidx23, ridx23, idx2425, cat_apply]

private theorem lidx29 (n : Fin 8192) (d : Fin 64) (k : Fin 64) : lidx_main_v29 (ix2 n d) k = ix2 n k :=
  funext fun a => Fin.ext (by match a with | ⟨0, _⟩ => rfl | ⟨1, _⟩ => rfl)
private theorem ridx29 (n : Fin 8192) (d : Fin 64) (k : Fin 64) : ridx_main_v29 (ix2 n d) k = ix2 k d :=
  funext fun a => Fin.ext (by match a with | ⟨0, _⟩ => rfl | ⟨1, _⟩ => rfl)
private theorem lidx31 (n : Fin 8192) (d : Fin 64) (k : Fin 64) : lidx_main_v31 (ix2 n d) k = ix2 n k :=
  funext fun a => Fin.ext (by match a with | ⟨0, _⟩ => rfl | ⟨1, _⟩ => rfl)
private theorem ridx31 (n : Fin 8192) (d : Fin 64) (k : Fin 64) : ridx_main_v31 (ix2 n d) k = ix2 k d :=
  funext fun a => Fin.ext (by match a with | ⟨0, _⟩ => rfl | ⟨1, _⟩ => rfl)
private theorem idx3334 (n : Fin 8192) (d : Fin 64) : idx_main_v33 (idx_main_v34 (ix2 n d)) = ix1 d :=
  funext fun a => Fin.ext (by match a with | ⟨0, _⟩ => rfl)

/-- The update gate. -/
theorem zg_apply (n : Fin 8192) (d : Fin 64) :
    val_main_v41 (F := Ideal) x0 x1 x2 x3 x6 x7 x8 x9 x10 x11 x12 x13 (ix2 n d)
      = Spec.zg (fun e => val_main_v16 (F := Ideal) x0 x2 x3 x6 x8 (ix2 n e)) (fun k => x1 (ix2 n k)) (fun k => val_main_v0 (F := Ideal) x0 (ix2 n k))
          (fun k => x7 (ix1 k)) (fun k => x10 (ix1 k)) (fun k => x13 (ix1 k)) (fun j k => val_main_v22 (F := Ideal) x9 (ix2 j k))
          (fun k e => val_main_v28 (F := Ideal) x11 (ix2 k e)) (fun k e => val_main_v30 (F := Ideal) x12 (ix2 k e)) d := by
  rw [val_main_v41_apply, val_main_v40_apply, val_main_cst_0_apply, val_main_v39_apply, val_main_v38_apply, val_main_cst_apply,
    val_main_v37_apply, val_main_v36_apply, val_main_v35_apply, val_main_v32_apply, val_main_v29_apply, val_main_v31_apply,
    val_main_v34_apply, val_main_v33_apply]
  unfold Spec.zg
  simp only [Ideal.hostDivf_def, Ideal.ofBits_def, Ideal.addf_def, Ideal.hostUnary_exp_def, Ideal.hostNegf_def, Ideal.negf_def,
    lidx29, ridx29, lidx31, ridx31, idx3334, emb_apply]
  exact Spec.logistic_quot _

private theorem lidx43 (n : Fin 8192) (d : Fin 64) (k : Fin 64) : lidx_main_v43 (ix2 n d) k = ix2 n k :=
  funext fun a => Fin.ext (by match a with | ⟨0, _⟩ => rfl | ⟨1, _⟩ => rfl)
private theorem ridx43 (n : Fin 8192) (d : Fin 64) (k : Fin 64) : ridx_main_v43 (ix2 n d) k = ix2 k d :=
  funext fun a => Fin.ext (by match a with | ⟨0, _⟩ => rfl | ⟨1, _⟩ => rfl)
private theorem lidx45 (n : Fin 8192) (d : Fin 64) (k : Fin 64) : lidx_main_v45 (ix2 n d) k = ix2 n k :=
  funext fun a => Fin.ext (by match a with | ⟨0, _⟩ => rfl | ⟨1, _⟩ => rfl)
private theorem ridx45 (n : Fin 8192) (d : Fin 64) (k : Fin 64) : ridx_main_v45 (ix2 n d) k = ix2 k d :=
  funext fun a => Fin.ext (by match a with | ⟨0, _⟩ => rfl | ⟨1, _⟩ => rfl)
private theorem idx4748 (n : Fin 8192) (d : Fin 64) : idx_main_v47 (idx_main_v48 (ix2 n d)) = ix1 d :=
  funext fun a => Fin.ext (by match a with | ⟨0, _⟩ => rfl)

/-- The reset gate. -/
theorem rg_apply (n : Fin 8192) (d : Fin 64) :
    val_main_v55 (F := Ideal) x0 x1 x2 x3 x6 x7 x8 x9 x10 x14 x15 x16 (ix2 n d)
      = Spec.rg (fun e => val_main_v16 (F := Ideal) x0 x2 x3 x6 x8 (ix2 n e)) (fun k => x1 (ix2 n k)) (fun k => val_main_v0 (F := Ideal) x0 (ix2 n k))
          (fun k => x7 (ix1 k)) (fun k => x10 (ix1 k)) (fun k => x16 (ix1 k)) (fun j k => val_main_v22 (F := Ideal) x9 (ix2 j k))
          (fun k e => val_main_v42 (F := Ideal) x14 (ix2 k e)) (fun k e => val_main_v44 (F := Ideal) x15 (ix2 k e)) d := by
  rw [val_main_v55_apply, val_main_v54_apply, val_main_cst_2_apply, val_main_v53_apply, val_main_v52_apply, val_main_cst_1_apply,
    val_main_v51_apply, val_main_v50_apply, val_main_v49_apply, val_main_v46_apply, val_main_v43_apply, val_main_v45_apply,
    val_main_v48_apply, val_main_v47_apply]
  unfold Spec.rg
  simp only [Ideal.hostDivf_def, Ideal.ofBits_def, Ideal.addf_def, Ideal.hostUnary_exp_def, Ideal.hostNegf_def, Ideal.negf_def,
    lidx43, ridx43, lidx45, ridx45, idx4748, emb_apply]
  exact Spec.logistic_quot _

private theorem lidx57 (n : Fin 8192) (d : Fin 64) (k : Fin 64) : lidx_main_v57 (ix2 n d) k = ix2 n k :=
  funext fun a => Fin.ext (by match a with | ⟨0, _⟩ => rfl | ⟨1, _⟩ => rfl)
private theorem ridx57 (n : Fin 8192) (d : Fin 64) (k : Fin 64) : ridx_main_v57 (ix2 n d) k = ix2 k d :=
  funext fun a => Fin.ext (by match a with | ⟨0, _⟩ => rfl | ⟨1, _⟩ => rfl)
private theorem lidx60 (n : Fin 8192) (d : Fin 64) (k : Fin 64) : lidx_main_v60 (ix2 n d) k = ix2 n k :=
  funext fun a => Fin.ext (by match a with | ⟨0, _⟩ => rfl | ⟨1, _⟩ => rfl)
private theorem ridx60 (n : Fin 8192) (d : Fin 64) (k : Fin 64) : ridx_main_v60 (ix2 n d) k = ix2 k d :=
  funext fun a => Fin.ext (by match a with | ⟨0, _⟩ => rfl | ⟨1, _⟩ => rfl)
private theorem idx6263 (n : Fin 8192) (d : Fin 64) : idx_main_v62 (idx_main_v63 (ix2 n d)) = ix1 d :=
  funext fun a => Fin.ext (by match a with | ⟨0, _⟩ => rfl)

/-- The candidate state. -/
theorem hg_apply (n : Fin 8192) (d : Fin 64) :
    val_main_v65 (F := Ideal) x0 x1 x2 x3 x6 x7 x8 x9 x10 x14 x15 x16 x17 x18 x19 (ix2 n d)
      = Spec.hg (fun e => val_main_v16 (F := Ideal) x0 x2 x3 x6 x8 (ix2 n e)) (fun k => x1 (ix2 n k)) (fun k => val_main_v0 (F := Ideal) x0 (ix2 n k))
          (fun k => x7 (ix1 k)) (fun k => x10 (ix1 k)) (fun k => x16 (ix1 k)) (fun k => x19 (ix1 k)) (fun j k => val_main_v22 (F := Ideal) x9 (ix2 j k))
          (fun k e => val_main_v42 (F := Ideal) x14 (ix2 k e)) (fun k e => val_main_v44 (F := Ideal) x15 (ix2 k e))
          (fun k e => val_main_v56 (F := Ideal) x17 (ix2 k e)) (fun k e => val_main_v59 (F := Ideal) x18 (ix2 k e)) d := by
  rw [val_main_v65_apply, val_main_v64_apply, val_main_v61_apply, val_main_v57_apply, val_main_v60_apply, val_main_v63_apply,
    val_main_v62_apply]
  unfold Spec.hg
  simp only [Ideal.hostUnary_tanh_def, Ideal.addf_def, Ideal.mulf_def, lidx57, ridx57, lidx60, ridx60, idx6263, emb_apply,
    val_main_v58_apply, rg_apply]

/-- The new embedding, the received message still the reference's own stage. -/
theorem out_apply (n : Fin 8192) (d : Fin 64) :
    val_main_v70 (F := Ideal) x0 x1 x2 x3 x6 x7 x8 x9 x10 x11 x12 x13 x14 x15 x16 x17 x18 x19 (ix2 n d)
      = Spec.out (fun e => val_main_v16 (F := Ideal) x0 x2 x3 x6 x8 (ix2 n e)) (fun k => x1 (ix2 n k)) (fun k => val_main_v0 (F := Ideal) x0 (ix2 n k))
          (fun k => x7 (ix1 k)) (fun k => x10 (ix1 k)) (fun k => x13 (ix1 k)) (fun k => x16 (ix1 k)) (fun k => x19 (ix1 k))
          (fun j k => val_main_v22 (F := Ideal) x9 (ix2 j k))
          (fun k e => val_main_v28 (F := Ideal) x11 (ix2 k e)) (fun k e => val_main_v30 (F := Ideal) x12 (ix2 k e))
          (fun k e => val_main_v42 (F := Ideal) x14 (ix2 k e)) (fun k e => val_main_v44 (F := Ideal) x15 (ix2 k e))
          (fun k e => val_main_v56 (F := Ideal) x17 (ix2 k e)) (fun k e => val_main_v59 (F := Ideal) x18 (ix2 k e)) d := by
  rw [val_main_v70_apply, val_main_v68_apply, val_main_v67_apply, val_main_v66_apply, val_main_cst_3_apply, val_main_v69_apply,
    zg_apply, hg_apply]
  unfold Spec.out
  simp only [Ideal.addf_def, Ideal.mulf_def, Ideal.subf_def, Ideal.ofBits_def]

end

/-- Row `n`, feature `d` of the reference's result before its last reshape. The forward embedding `v · fb0ᵀ`, the
    transposed matrices and the reshaped previous embedding are left as the reference's own stages (the kernel's
    program computes the same ones on the host). -/
theorem ref_apply (x0 : (⟨S1x8192x64, .f32⟩ : BufTy).Contents (Elt Ideal)) (x1 : (⟨S8192x8, .f32⟩ : BufTy).Contents (Elt Ideal))
    (x2 x3 : (⟨S32768x8192, .f32⟩ : BufTy).Contents (Elt Ideal)) (x6 : (⟨S2x64x64, .f32⟩ : BufTy).Contents (Elt Ideal))
    (x7 x8 : (⟨S64, .f32⟩ : BufTy).Contents (Elt Ideal)) (x9 : (⟨S64x72, .f32⟩ : BufTy).Contents (Elt Ideal))
    (x10 : (⟨S64, .f32⟩ : BufTy).Contents (Elt Ideal)) (x11 x12 : (⟨S64x64, .f32⟩ : BufTy).Contents (Elt Ideal))
    (x13 : (⟨S64, .f32⟩ : BufTy).Contents (Elt Ideal)) (x14 x15 : (⟨S64x64, .f32⟩ : BufTy).Contents (Elt Ideal))
    (x16 : (⟨S64, .f32⟩ : BufTy).Contents (Elt Ideal)) (x17 x18 : (⟨S64x64, .f32⟩ : BufTy).Contents (Elt Ideal))
    (x19 : (⟨S64, .f32⟩ : BufTy).Contents (Elt Ideal)) (n : Fin 8192) (d : Fin 64) :
    val_main_v70 (F := Ideal) x0 x1 x2 x3 x6 x7 x8 x9 x10 x11 x12 x13 x14 x15 x16 x17 x18 x19 (ix2 n d)
      = Spec.out
          (Spec.nv (fun r j => x2 (ix2 r j)) (fun r j => x3 (ix2 r j)) (fun j k => val_main_v5 (F := Ideal) x0 x6 (ix2 j k))
            (fun k => x8 (ix1 k)) (fun k e => val_main_v14 (F := Ideal) x6 (ix2 k e)) n)
          (fun k => x1 (ix2 n k)) (fun k => val_main_v0 (F := Ideal) x0 (ix2 n k))
          (fun k => x7 (ix1 k)) (fun k => x10 (ix1 k)) (fun k => x13 (ix1 k)) (fun k => x16 (ix1 k)) (fun k => x19 (ix1 k))
          (fun j k => val_main_v22 (F := Ideal) x9 (ix2 j k))
          (fun k e => val_main_v28 (F := Ideal) x11 (ix2 k e)) (fun k e => val_main_v30 (F := Ideal) x12 (ix2 k e))
          (fun k e => val_main_v42 (F := Ideal) x14 (ix2 k e)) (fun k e => val_main_v44 (F := Ideal) x15 (ix2 k e))
          (fun k e => val_main_v56 (F := Ideal) x17 (ix2 k e)) (fun k e => val_main_v59 (F := Ideal) x18 (ix2 k e)) d := by
  rw [out_apply]
  have hnv : (fun e => val_main_v16 (F := Ideal) x0 x2 x3 x6 x8 (ix2 n e))
      = Spec.nv (fun r j => x2 (ix2 r j)) (fun r j => x3 (ix2 r j)) (fun j k => val_main_v5 (F := Ideal) x0 x6 (ix2 j k))
          (fun k => x8 (ix1 k)) (fun k e => val_main_v14 (F := Ideal) x6 (ix2 k e)) n :=
    funext fun e => nv_apply x0 x2 x3 x6 x8 n e
  rw [hnv]

end Cert.ReferenceIdeal.RefVal

end
-- ==== Proof.lean ====
/-
  The certificate: a bipartite clause–variable message pass followed by a gated recurrent update of the variable
  embeddings, as one tiled kernel program against the plain array program.

  Both programs, read over the extended reals, compute for every variable `n` and feature `d` the specification's
  `Spec.out` (Proof/Spec.lean): the message `nv n d = Σ r, cm r n · msg r d` over all 32768 clauses, then the ground
  combiner and the gated update, row by row. The reference forms the message as one product with the transposed
  incidence matrix. The kernel program forms it tile by tile: its first region runs over 2 × 128 grid points, each
  adding the contribution of 128 clause rows to the accumulator block of its half (an induction over the grid,
  Proof/R0Acc.lean), the host adds the two halves from the zero, and the second region updates 1024 variable rows a
  grid point. The two sums are one sum regrouped (Proof/SpecSplit.lean); format changes are the identity, a product
  into a zero accumulator is the plain sum of products, and the logistic function is the same quotient on both sides,
  so no finiteness of the inputs is used.

  The three frames are the generated ones (the reference's is its generated run with the result dropped); nothing was
  rewritten by the idealization, so `preserves` is trivial.
-/
import proofs.«166183_j24507083391172_1_alg».proof.Defs
import proofs.«166183_j24507083391172_1_alg».proof.Proof.Gen.Kernel
import proofs.«166183_j24507083391172_1_alg».proof.Proof.Gen.Kernel.Frame
import proofs.«166183_j24507083391172_1_alg».proof.Proof.Gen.KernelIdeal
import proofs.«166183_j24507083391172_1_alg».proof.Proof.Gen.KernelIdeal.Frame
import proofs.«166183_j24507083391172_1_alg».proof.Proof.Gen.ReferenceIdeal
import proofs.«166183_j24507083391172_1_alg».proof.Proof.Gen.ReferenceIdeal.Run
import proofs.«166183_j24507083391172_1_alg».proof.Proof.Gen.ReferenceIdeal.Read
import proofs.«166183_j24507083391172_1_alg».proof.Proof.Gen.Pre_finite_inputs
import proofs.«166183_j24507083391172_1_alg».proof.Proof.KernelRun
import proofs.«166183_j24507083391172_1_alg».proof.Proof.KernelVal
import proofs.«166183_j24507083391172_1_alg».proof.Proof.HostGlue
import proofs.«166183_j24507083391172_1_alg».proof.Proof.RefVal
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel program's result and the reference's are the same reshape of the same array:
    entry `(n, d)` of both is the specification's update of variable `n`. -/
theorem algebraic : Cert.algebraic_KernelIdeal_ReferenceIdeal := by
  intro m ρ m' ρ' _ hagree
  refine ⟨fun c => Cert.KernelIdeal.Gen.W5 m ρ c (Proc.devRef .tc Cert.KernelIdeal.main_v24),
    Cert.KernelIdeal.KRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq]
  refine Eq.trans ?_ (Cert.KernelIdeal.HG.W5_v24 m ρ c).symm
  unfold Cert.ReferenceIdeal.Read.val_main_v71
  refine congrArg (fun x => shapeCast _ x _) ?_
  funext j
  obtain ⟨n, d, rfl⟩ : ∃ (n : Fin 8192) (d : Fin 64), j = ix2 n d := ⟨j 0, j 1, eq_ix2 j⟩
  rw [Cert.ReferenceIdeal.RefVal.ref_apply, Cert.KernelIdeal.KV.kernel_apply]
  obtain ⟨h0, h1, h2, h3, h4, h5, h6, h7, h8, h9, h10, h11, h12, h13, h14, h15, h16, h17, h18, h19⟩ := hagree c
  rw [h0, h1, h2, h3, h6, h7, h8, h9, h10, h11, h12, h13, h14, h15, h16, h17, h18, h19]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
